-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x2048x1024 .f32) (main_arg1 : FVec F S8x2048x1024 .f32) (main_arg2 : FVec F S8x2048x1024 .f32) (main_arg3 : FVec F S8x2048x2048 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_arg4 main_arg5 main_arg6 main_arg7 main_arg8 main_arg9 main_arg10 main_arg11 main_v13 main_v16
-- ==== Kernel.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 27
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S16384x1024, .bf16⟩
  | .hbm, ⟨24, _⟩ => ⟨S8x2048x1024, .bf16⟩
  | .hbm, ⟨25, _⟩ => ⟨S8x2048x1024, .bf16⟩
  | .hbm, ⟨26, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1024x1024, .bf16⟩
  | .local _ .vmem, ⟨15, _⟩ => ⟨S1024, .f32⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x2048, .f32⟩
  | .local _ .vmem, ⟨21, _⟩ => ⟨S1x256x2048, .f32⟩
  | .local _ .vmem, ⟨22, _⟩ => ⟨S1024x1024, .bf16⟩
  | .local _ .vmem, ⟨23, _⟩ => ⟨S1024, .f32⟩
  | .local _ .vmem, ⟨24, _⟩ => ⟨S1x256x1024, .f32⟩
  | .local _ .vmem, ⟨25, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S1024x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  transposes_S1024x1024_S1024x1024_1_0 : S1024x1024.Transposes [1, 0] S1024x1024
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  shapeCasts_S256x1024_S1x256x1024 : S256x1024.ShapeCasts S1x256x1024
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S16384x1024.size a
  hwx0_6 : ∀ i : grid0.Coords, EltTy.bits .bf16 = 32 ∨ (Rect.block (s := S16384x1024) S1024x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S16384x1024.size a
  hwx0_7 : ∀ i : grid0.Coords, EltTy.bits .bf16 = 32 ∨ (Rect.block (s := S16384x1024) S1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .f32 = 32 ∨ (Rect.block (s := S8x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .bf16 = 32 ∨ (Rect.block (s := S8x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S8x2048x1024.size a
  hwx1_4 : ∀ i : grid1.Coords, EltTy.bits .bf16 = 32 ∨ (Rect.block (s := S8x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S8x2048x2048.size a
  hwx1_5 : ∀ i : grid1.Coords, EltTy.bits .f32 = 32 ∨ (Rect.block (s := S8x2048x2048) S1x256x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S1024x1024.size a
  hwx1_6 : ∀ i : grid1.Coords, EltTy.bits .bf16 = 32 ∨ (Rect.block (s := S1024x1024) S1024x1024.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S1024.size a
  hwx1_7 : ∀ i : grid1.Coords, EltTy.bits .f32 = 32 ∨ (Rect.block (s := S1024) S1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x256x1024.size a ≤ S8x2048x1024.size a
  hwx1_8 : ∀ i : grid1.Coords, EltTy.bits .f32 = 32 ∨ (Rect.block (s := S8x2048x1024) S1x256x1024.size (cc1_transform_8 i) (hinb1_8 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S1x256x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1024x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x256x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S8x2048x1024, .f32⟩
  | .hbm, ⟨13, _⟩ => ⟨S1x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  The mathematics both programs compute, one output row at a time, over plain finite index types.

  A linear layer sends a row x of length 1024 to  e ↦ (∑ d, x d · WT d e) + b e.
  One query row q attends over 2048 key rows: the scores are  s k = ((∑ d, q d · K k d) + bias k) scaled,
  their maximum m is taken over k, the weights are  p k = exp (s k − m), their sum is l = ∑ k, p k, and the
  attended row is the p-weighted sum of the value rows divided by l.
  The two programs differ in two places only:
    • the scale: one multiplies by the literal 1/8, the other divides by √64;
    • the normalisation: one divides the weighted sum by l once, (∑ k, p k · V k d) / l, the other divides
      every weight first, ∑ k, (p k / l) · V k d.
  Both are spelt here; that they agree where the scores are real numbers is proved in the next module.
-/
import Idealize.ShloMosaic.PureOps.Ideal
import Idealize.ShloMosaic.Lib.ValueIdx

noncomputable section

namespace Cert.Attn

open Idealize.ShloMosaic Idealize.ShloMosaic.ValueIdx

/-- One output row of a linear layer: `e ↦ (∑ d, x d · WT d e) + b e`. -/
def linRow (x : Fin 1024 → EReal) (WT : Fin 1024 → Fin 1024 → EReal) (b : Fin 1024 → EReal) (e : Fin 1024) : EReal :=
  (∑ d : Fin 1024, x d * WT d e) + b e

/-- The maximum of a row of 2048 scores, taken from `⊥`. -/
def rowMax (s : Fin 2048 → EReal) : EReal := (Finset.univ : Finset (Fin 2048)).fold max ⊥ s

/-- The unscaled score of key row `k`: the inner product with the query row, plus the bias. -/
def rawScore (q : Fin 1024 → EReal) (K : Fin 2048 → Fin 1024 → EReal) (bias : Fin 2048 → EReal) (k : Fin 2048) : EReal :=
  (∑ d : Fin 1024, q d * K k d) + bias k

/-- Scaled by multiplying with the literal `1/8`. -/
def scoreMul (q : Fin 1024 → EReal) (K : Fin 2048 → Fin 1024 → EReal) (bias : Fin 2048 → EReal) (k : Fin 2048) : EReal :=
  rawScore q K bias k * Ideal.ofBits .f32 0x3E000000#32

/-- Scaled by dividing by `√64`. -/
def scoreDiv (q : Fin 1024 → EReal) (K : Fin 2048 → Fin 1024 → EReal) (bias : Fin 2048 → EReal) (k : Fin 2048) : EReal :=
  Ideal.div (rawScore q K bias k) (Ideal.sqrt (Ideal.ofBits .f32 0x42800000#32))

/-- The softmax numerator: `exp (s k − max s)`. -/
def expRow (s : Fin 2048 → EReal) (k : Fin 2048) : EReal := Ideal.exp (s k - rowMax s)

/-- Normalised once, after the weighted sum: `(∑ k, p k · V k d) / ∑ k, p k`. -/
def attLate (s : Fin 2048 → EReal) (V : Fin 2048 → Fin 1024 → EReal) (d : Fin 1024) : EReal :=
  Ideal.div (∑ k : Fin 2048, expRow s k * V k d) (∑ k : Fin 2048, expRow s k)

/-- Normalised weight by weight, before the sum: `∑ k, (p k / ∑ p) · V k d`. -/
def attEarly (s : Fin 2048 → EReal) (V : Fin 2048 → Fin 1024 → EReal) (d : Fin 1024) : EReal :=
  ∑ k : Fin 2048, Ideal.div (expRow s k) (∑ k' : Fin 2048, expRow s k') * V k d

/-! ## The same, over whole arrays

`A3` is a batch of 8 sequences of 2048 rows of length 1024, `A3s` the 8 score matrices, `M2` a weight matrix stored
output-major (`W (e, d)`, used transposed), `V1` a bias vector. -/

abbrev A3 := (⟨3, ![8, 2048, 1024]⟩ : Shape).Idx → EReal
abbrev A3s := (⟨3, ![8, 2048, 2048]⟩ : Shape).Idx → EReal
abbrev M2 := (⟨2, ![1024, 1024]⟩ : Shape).Idx → EReal
abbrev V1 := (⟨1, ![1024]⟩ : Shape).Idx → EReal

/-- Row `(b, n)` of `x` through the linear layer `W, bias`: `e ↦ (∑ d, x (b, n, d) · W (e, d)) + bias e`. -/
def proj (x : A3) (W : M2) (bias : V1) (b : Fin 8) (n : Fin 2048) : Fin 1024 → EReal :=
  linRow (fun d => x (ix3 b n d)) (fun d e => W (ix2 e d)) (fun e => bias (ix1 e))

/-- The whole result with the scale a product and one late division. -/
def resultLate (query key value : A3) (score : A3s) (Wq : M2) (bq : V1) (Wk : M2) (bk : V1) (Wv : M2) (bv : V1)
    (Wo : M2) (bo : V1) : A3 := fun i =>
  linRow (attLate (scoreMul (proj query Wq bq (i 0) (i 1)) (fun k => proj key Wk bk (i 0) k) (fun k => score (ix3 (i 0) (i 1) k)))
      (fun k => proj value Wv bv (i 0) k))
    (fun d e => Wo (ix2 e d)) (fun e => bo (ix1 e)) (i 2)

/-- The whole result with the scale a quotient and every weight divided. -/
def resultEarly (query key value : A3) (score : A3s) (Wq : M2) (bq : V1) (Wk : M2) (bk : V1) (Wv : M2) (bv : V1)
    (Wo : M2) (bo : V1) : A3 := fun i =>
  linRow (attEarly (scoreDiv (proj query Wq bq (i 0) (i 1)) (fun k => proj key Wk bk (i 0) k) (fun k => score (ix3 (i 0) (i 1) k)))
      (fun k => proj value Wv bv (i 0) k))
    (fun d e => Wo (ix2 e d)) (fun e => bo (ix1 e)) (i 2)

/-- Every entry of a family of extended reals is a real number. -/
def AllReal {α : Type} (f : α → EReal) : Prop := ∀ a, ∃ r : ℝ, f a = (r : EReal)

end Cert.Attn

end
-- ==== Proof.Payload0.lean ====
/-
  The projection body as arithmetic at one index of its output block: for a block of 1024 rows, each row through a
  linear layer (a matrix product with the transposed weights, plus the bias on every row).
-/
import proofs.«408704_j36756330119358_3_alg».proof.Proof.Gen.KernelIdeal.Skeleton
import proofs.«408704_j36756330119358_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen Cert.Attn

/-! ## The product's operand indices

The product contracts the left operand's second axis with the right operand's first: at output entry `(r, e)` and
contraction coordinate `k` it reads the left operand at `(r, k)` and the right at `(k, e)`. -/

private theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
private theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
private theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
private theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into the zero accumulator, at entry `(r, e)`: `∑ d, a (r, d) · b (d, e)`. -/
private theorem product_apply (a b : FVec Ideal S1024x1024 .bf16) (r e : Fin 1024) :
    (matmul dot_S1024x1024_S1024x1024_S1024x1024_1_0_0_1_n_n none a b (constant (F := Ideal) S1024x1024 .f32 0x00000000#32) : S1024x1024.Idx → EReal) (ix2 r e)
      = ∑ d : Fin 1024, (a : S1024x1024.Idx → EReal) (ix2 r d) * (b : S1024x1024.Idx → EReal) (ix2 d e) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r e) ((contrEquiv1 dot_S1024x1024_S1024x1024_S1024x1024_1_0_0_1_n_n 1024 rfl rfl).symm k) = ix2 r k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 r e) ((contrEquiv1 dot_S1024x1024_S1024x1024_S1024x1024_1_0_0_1_n_n 1024 rfl rfl).symm k) = ix2 k e := funext fun a => Fin.ext (by
    match a with
    | ⟨0, _⟩ => exact (rhs_axis0 _ _).trans hk
    | ⟨1, _⟩ => exact rhs_axis1 _ _)
  rw [el, er]

/-- The bias vector laid along every row, at entry `(r, e)`: the bias at `e`. -/
private theorem bias_apply (v : Vec Ideal S1024 .f32) (r e : Fin 1024) :
    (broadcastTo S1024x1024 (shapeCast S1x1024 v Facts₀.shapeCasts_S1024_S1x1024) Facts₀.broadcasts_S1x1024_S1024x1024
        : S1024x1024.Idx → EReal) (ix2 r e) = (v : S1024.Idx → EReal) (ix1 e) := by
  rw [broadcastTo_1b_ab_apply, shapeCast_a_1a_apply]

/-- Entry `(r, e)` of the key projection block: row `r` of the loaded rows through the linear layer. -/
theorem k0_pay1_apply (v0 : Vec Ideal S1024x1024 .f32) (v6 : Vec Ideal S1024x1024 .bf16) (v9 : Vec Ideal S1024 .f32)
    (r e : Fin 1024) :
    (k0_pay1 (F := Ideal) v0 v6 v9 : S1024x1024.Idx → EReal) (ix2 r e)
      = linRow (fun d => (v0 : S1024x1024.Idx → EReal) (ix2 r d)) (fun d e' => (v6 : S1024x1024.Idx → EReal) (ix2 d e'))
          (fun e' => (v9 : S1024.Idx → EReal) (ix1 e')) e := by
  unfold k0_pay1 linRow
  rw [truncf_apply, addf_apply, bias_apply, shapeCast_self, shapeCast_self, product_apply]
  rfl

/-- The same for the value projection block. -/
theorem k0_pay2_apply (v3 : Vec Ideal S1024x1024 .f32) (v13 : Vec Ideal S1024x1024 .bf16) (v16 : Vec Ideal S1024 .f32)
    (r e : Fin 1024) :
    (k0_pay2 (F := Ideal) v3 v13 v16 : S1024x1024.Idx → EReal) (ix2 r e)
      = linRow (fun d => (v3 : S1024x1024.Idx → EReal) (ix2 r d)) (fun d e' => (v13 : S1024x1024.Idx → EReal) (ix2 d e'))
          (fun e' => (v16 : S1024.Idx → EReal) (ix1 e')) e := by
  unfold k0_pay2 linRow
  rw [truncf_apply, addf_apply, bias_apply, shapeCast_self, shapeCast_self, product_apply]
  rfl

end Cert.KernelIdeal.Hand

end
-- ==== Proof.Region0.lean ====
/-
  The projection region: 16 grid points, point t owning rows 1024·t … 1024·t + 1023 of the flattened
  [16384, 1024] key and value arrays. Each point writes back its block of both outputs, and the blocks tile the
  arrays, so each output array ends holding every row of its input through its linear layer.
-/
import proofs.«408704_j36756330119358_3_alg».proof.Proof.Gen.KernelIdeal.Frame
import proofs.«408704_j36756330119358_3_alg».proof.Proof.Payload0
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Attn

-- the buffer contents the region is entered with
variable (V : (c : Dev nD) → (b : Ref sig .tc) → Buf (Elt Ideal) ((c : Thread nD τ).loc b))

/-! ## The rows through the linear layer, as one function of whole arrays -/

/-- Every row of `A` through the linear layer with weights `W` (used transposed as stored) and bias `b`. -/
private abbrev projRows (A : S16384x1024.Idx → EReal) (W : S1024x1024.Idx → EReal) (b : S1024.Idx → EReal) : S16384x1024.Idx → EReal := fun i =>
  linRow (fun d => A (ix2 (i 0) d)) (fun d e => W (ix2 d e)) (fun e => b (ix1 e)) (i 1)

private theorem zeros2 : (![0, 0] : Fin 2 → Nat) = fun _ => 0 := funext fun a => by fin_cases a <;> rfl
private theorem zeros1 : (![0] : Fin 1 → Nat) = fun _ => 0 := funext fun a => by fin_cases a <;> rfl

/-- One entry of a block of 1024 rows through the layer is the entry of the whole array's rows through it, once the
    block's rows are the array's rows `1024·t + p` and the weights and bias are read whole. -/
private theorem block_entry (A : S16384x1024.Idx → EReal) (W x2 : S1024x1024.Idx → EReal) (b x3 : S1024.Idx → EReal)
    (x0 : S1024x1024.Idx → EReal) (p q : Fin 1024) (i : S16384x1024.Idx) (hq : (i 1).val = q.val)
    (hx0 : ∀ d : Fin 1024, x0 (ix2 p d) = A (ix2 (i 0) d)) (hx2 : x2 = W) (hx3 : x3 = b) :
    linRow (fun d => x0 (ix2 p d)) (fun d e => x2 (ix2 d e)) (fun e => x3 (ix1 e)) q = projRows A W b i := by
  subst hx2 hx3
  obtain rfl : q = i 1 := Fin.ext hq.symm
  rw [show (fun d => x0 (ix2 p d)) = fun d => A (ix2 (i 0) d) from funext hx0]

/-! ## The grid: which block of each array a point works on -/

/-- Point `t` takes block row `t` of both row arrays and of both outputs, and the one block of each weight matrix and bias
    (decided over the 16 points). -/
private theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks as parts of their arrays -/

/-- Entry `(p, d)` of point `t`'s block of the key rows is entry `(1024·t + p, d)` of the array. -/
private theorem key_rows_apply (c : Dev nD) (t : Fin cfg0.N) (p d : Fin 1024) (i : S16384x1024.Idx)
    (h0 : (i 0).val = 1024 * t.val + p.val) (h1 : (i 1).val = d.val) :
    (iblk0 V c 0 t : S1024x1024.Idx → EReal) (ix2 p d) = (V c (Pipeline.arrRef spec0 0) : S16384x1024.Idx → EReal) i := by
  obtain ⟨k0, k1, v0, v1, -⟩ := block_indices t
  unfold iblk0
  rw [View.read_apply]
  show (V c (Pipeline.arrRef spec0 0) : S16384x1024.Idx → EReal) (((cfg0.win 0).blk t).view.emb (ix2 p d)) = _
  refine congrArg _ (funext fun a => Fin.ext ?_)
  match a with
  | ⟨0, _⟩ => show win0_0.index t (0 : Fin 2) * 1024 + 1 * p.val = (i 0).val; omega
  | ⟨1, _⟩ => show win0_0.index t (1 : Fin 2) * 1024 + 1 * d.val = (i 1).val; omega

/-- Entry `(p, d)` of point `t`'s block of the value rows is entry `(1024·t + p, d)` of the array. -/
private theorem value_rows_apply (c : Dev nD) (t : Fin cfg0.N) (p d : Fin 1024) (i : S16384x1024.Idx)
    (h0 : (i 0).val = 1024 * t.val + p.val) (h1 : (i 1).val = d.val) :
    (iblk0 V c 1 t : S1024x1024.Idx → EReal) (ix2 p d) = (V c (Pipeline.arrRef spec0 1) : S16384x1024.Idx → EReal) i := by
  obtain ⟨k0, k1, v0, v1, -⟩ := block_indices t
  unfold iblk0
  rw [View.read_apply]
  show (V c (Pipeline.arrRef spec0 1) : S16384x1024.Idx → EReal) (((cfg0.win 1).blk t).view.emb (ix2 p d)) = _
  refine congrArg _ (funext fun a => Fin.ext ?_)
  match a with
  | ⟨0, _⟩ => show win0_1.index t (0 : Fin 2) * 1024 + 1 * p.val = (i 0).val; omega
  | ⟨1, _⟩ => show win0_1.index t (1 : Fin 2) * 1024 + 1 * d.val = (i 1).val; omega

/-- Every point's block of the key weights is the whole matrix. -/
private theorem key_weights_eq (c : Dev nD) (t : Fin cfg0.N) :
    (iblk0 V c 2 t : S1024x1024.Idx → EReal) = (V c (Pipeline.arrRef spec0 2) : S1024x1024.Idx → EReal) := by
  obtain ⟨-, -, -, -, a0, a1, a2, b0, b1, b2, -⟩ := block_indices t
  funext y
  unfold iblk0
  rw [View.read_apply]
  show (V c (Pipeline.arrRef spec0 2) : S1024x1024.Idx → EReal) (((cfg0.win 2).blk t).view.emb y) = _
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- Every point's block of the key bias is the whole vector. -/
private theorem key_bias_eq (c : Dev nD) (t : Fin cfg0.N) :
    (iblk0 V c 3 t : S1024.Idx → EReal) = (V c (Pipeline.arrRef spec0 3) : S1024.Idx → EReal) := by
  obtain ⟨-, -, -, -, a0, a1, a2, b0, b1, b2, -⟩ := block_indices t
  funext y
  unfold iblk0
  rw [View.read_apply]
  show (V c (Pipeline.arrRef spec0 3) : S1024.Idx → EReal) (((cfg0.win 3).blk t).view.emb y) = _
  refine congrArg _ (funext fun a => Fin.ext ?_)
  match a with
  | ⟨0, _⟩ => show win0_3.index t (0 : Fin 1) * 1024 + 1 * (y 0).val = (y 0).val; omega

/-- Every point's block of the value weights is the whole matrix. -/
private theorem value_weights_eq (c : Dev nD) (t : Fin cfg0.N) :
    (iblk0 V c 4 t : S1024x1024.Idx → EReal) = (V c (Pipeline.arrRef spec0 4) : S1024x1024.Idx → EReal) := by
  obtain ⟨-, -, -, -, a0, a1, a2, b0, b1, b2, -⟩ := block_indices t
  funext y
  unfold iblk0
  rw [View.read_apply]
  show (V c (Pipeline.arrRef spec0 4) : S1024x1024.Idx → EReal) (((cfg0.win 4).blk t).view.emb y) = _
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Every point's block of the value bias is the whole vector. -/
private theorem value_bias_eq (c : Dev nD) (t : Fin cfg0.N) :
    (iblk0 V c 5 t : S1024.Idx → EReal) = (V c (Pipeline.arrRef spec0 5) : S1024.Idx → EReal) := by
  obtain ⟨-, -, -, -, a0, a1, a2, b0, b1, b2, -⟩ := block_indices t
  funext y
  unfold iblk0
  rw [View.read_apply]
  show (V c (Pipeline.arrRef spec0 5) : S1024.Idx → EReal) (((cfg0.win 5).blk t).view.emb y) = _
  refine congrArg _ (funext fun a => Fin.ext ?_)
  match a with
  | ⟨0, _⟩ => show win0_5.index t (0 : Fin 1) * 1024 + 1 * (y 0).val = (y 0).val; omega

/-! ## What the body leaves, at one entry -/

/-- Entry `y` of what the body leaves in output window 6's buffer: row `y 0` of the loaded rows through the linear layer. -/
private theorem out0_6_apply (x0 x1 : Vec Ideal S1024x1024 .f32) (x2 : Vec Ideal S1024x1024 .bf16) (x3 : Vec Ideal S1024 .f32)
    (x4 : Vec Ideal S1024x1024 .bf16) (x5 : Vec Ideal S1024 .f32) (y : S1024x1024.Idx) :
    (out0_6 (F := Ideal) x0 x1 x2 x3 x4 x5 : S1024x1024.Idx → EReal) y
      = linRow (fun d => (x0 : S1024x1024.Idx → EReal) (ix2 (y 0) d)) (fun d e => (x2 : S1024x1024.Idx → EReal) (ix2 d e))
          (fun e => (x3 : S1024.Idx → EReal) (ix1 e)) (y 1) := by
  obtain ⟨p, q, rfl⟩ : ∃ (p q : Fin 1024), y = ix2 p q := ⟨y 0, y 1, eq_ix2 y⟩
  unfold out0_6
  rw [View.canon_unit_zero zeros2]
  simp only [View.ld_unit_zero (S := S1024x1024) zeros2, View.ld_unit_zero (S := S1024) zeros1]
  exact k0_pay1_apply x0 x2 x3 p q

/-- Entry `y` of what the body leaves in output window 7's buffer: row `y 0` of the loaded rows through the linear layer. -/
private theorem out0_7_apply (x0 x1 : Vec Ideal S1024x1024 .f32) (x2 : Vec Ideal S1024x1024 .bf16) (x3 : Vec Ideal S1024 .f32)
    (x4 : Vec Ideal S1024x1024 .bf16) (x5 : Vec Ideal S1024 .f32) (y : S1024x1024.Idx) :
    (out0_7 (F := Ideal) x0 x1 x2 x3 x4 x5 : S1024x1024.Idx → EReal) y
      = linRow (fun d => (x1 : S1024x1024.Idx → EReal) (ix2 (y 0) d)) (fun d e => (x4 : S1024x1024.Idx → EReal) (ix2 d e))
          (fun e => (x5 : S1024.Idx → EReal) (ix1 e)) (y 1) := by
  obtain ⟨p, q, rfl⟩ : ∃ (p q : Fin 1024), y = ix2 p q := ⟨y 0, y 1, eq_ix2 y⟩
  unfold out0_7
  rw [View.canon_unit_zero zeros2]
  simp only [View.ld_unit_zero (S := S1024x1024) zeros2, View.ld_unit_zero (S := S1024) zeros1]
  exact k0_pay2_apply x1 x4 x5 p q

/-! ## The projected keys -/

/-- What point `t` writes back to output window 6's array is its block of the projected rows. -/
private theorem flushed6_eq (c : Dev nD) (t : Fin cfg0.N) :
    (dat0 V c).flushed 6 t = ((cfg0.win 6).blk t).view.read (Elt Ideal)
      (projRows (V c (Pipeline.arrRef spec0 0)) (V c (Pipeline.arrRef spec0 2)) (V c (Pipeline.arrRef spec0 3))) := by
  show (cfg0.win 6).cut (grid0.coords t) ((dat0 V c).after 6 t) = _
  rw [after0_6]
  obtain ⟨-, -, -, -, -, -, -, -, -, -, o60, o61, o70, o71⟩ := block_indices t
  funext y
  have hi0 : ((((cfg0.win 6).blk t).view.emb y) 0).val = 1024 * t.val + (y 0).val := by
    show win0_6.index t (0 : Fin 2) * 1024 + 1 * (y 0).val = _; omega
  have hi1 : ((((cfg0.win 6).blk t).view.emb y) 1).val = (y 1).val := by
    show win0_6.index t (1 : Fin 2) * 1024 + 1 * (y 1).val = _; omega
  show (out0_6 (iblk0 V c 0 t) (iblk0 V c 1 t) (iblk0 V c 2 t) (iblk0 V c 3 t) (iblk0 V c 4 t) (iblk0 V c 5 t) : S1024x1024.Idx → EReal)
        ((cfg0.win 6).xinj (grid0.coords t) y)
      = projRows (V c (Pipeline.arrRef spec0 0)) (V c (Pipeline.arrRef spec0 2)) (V c (Pipeline.arrRef spec0 3))
          (((cfg0.win 6).blk t).view.emb y)
  refine (out0_6_apply _ _ _ _ _ _ _).trans ?_
  exact block_entry _ _ _ _ _ _ _ _ _ hi1 (fun d => key_rows_apply V c t _ d _ hi0 rfl) (key_weights_eq V c t) (key_bias_eq V c t)

/-- An index of output window 6's array is in point `t`'s block iff each coordinate is in the block's range on its axis. -/
private theorem mem_blk6 (t : Fin cfg0.N) (i : S16384x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v10_0).slice (win0_6.rect t)).set ↔ _
  rw [View.set_slice_whole, Rect.mem_set_unit]
  exact Iff.rfl

/-- Row `r` of output window 6's array is in the block of point `r / 1024`, which writes back: the blocks cover the array. -/
private theorem cover6 (i : S16384x1024.Idx) :
    ∃ t : Fin cfg0.N, (cfg0.win 6).flush t = true ∧ i ∈ ((cfg0.win 6).blk t).view.set := by
  have h0 : (i 0).val < 16384 := idx2_lt0 i
  have h1 : (i 1).val < 1024 := idx2_lt1 i
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, -, -, -, -, o60, o61, o70, o71⟩ := block_indices t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-! ## The projected values -/

/-- What point `t` writes back to output window 7's array is its block of the projected rows. -/
private theorem flushed7_eq (c : Dev nD) (t : Fin cfg0.N) :
    (dat0 V c).flushed 7 t = ((cfg0.win 7).blk t).view.read (Elt Ideal)
      (projRows (V c (Pipeline.arrRef spec0 1)) (V c (Pipeline.arrRef spec0 4)) (V c (Pipeline.arrRef spec0 5))) := by
  show (cfg0.win 7).cut (grid0.coords t) ((dat0 V c).after 7 t) = _
  rw [after0_7]
  obtain ⟨-, -, -, -, -, -, -, -, -, -, o60, o61, o70, o71⟩ := block_indices t
  funext y
  have hi0 : ((((cfg0.win 7).blk t).view.emb y) 0).val = 1024 * t.val + (y 0).val := by
    show win0_7.index t (0 : Fin 2) * 1024 + 1 * (y 0).val = _; omega
  have hi1 : ((((cfg0.win 7).blk t).view.emb y) 1).val = (y 1).val := by
    show win0_7.index t (1 : Fin 2) * 1024 + 1 * (y 1).val = _; omega
  show (out0_7 (iblk0 V c 0 t) (iblk0 V c 1 t) (iblk0 V c 2 t) (iblk0 V c 3 t) (iblk0 V c 4 t) (iblk0 V c 5 t) : S1024x1024.Idx → EReal)
        ((cfg0.win 7).xinj (grid0.coords t) y)
      = projRows (V c (Pipeline.arrRef spec0 1)) (V c (Pipeline.arrRef spec0 4)) (V c (Pipeline.arrRef spec0 5))
          (((cfg0.win 7).blk t).view.emb y)
  refine (out0_7_apply _ _ _ _ _ _ _).trans ?_
  exact block_entry _ _ _ _ _ _ _ _ _ hi1 (fun d => value_rows_apply V c t _ d _ hi0 rfl) (value_weights_eq V c t) (value_bias_eq V c t)

/-- An index of output window 7's array is in point `t`'s block iff each coordinate is in the block's range on its axis. -/
private theorem mem_blk7 (t : Fin cfg0.N) (i : S16384x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v10_1).slice (win0_7.rect t)).set ↔ _
  rw [View.set_slice_whole, Rect.mem_set_unit]
  exact Iff.rfl

/-- Row `r` of output window 7's array is in the block of point `r / 1024`, which writes back: the blocks cover the array. -/
private theorem cover7 (i : S16384x1024.Idx) :
    ∃ t : Fin cfg0.N, (cfg0.win 7).flush t = true ∧ i ∈ ((cfg0.win 7).blk t).view.set := by
  have h0 : (i 0).val < 16384 := idx2_lt0 i
  have h1 : (i 1).val < 1024 := idx2_lt1 i
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, -, -, -, -, o60, o61, o70, o71⟩ := block_indices t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1024 ≤ (i 1).val ∧ (i 1).val < win0_7.index t (1 : Fin 2) * 1024 + 1024; omega

/-! ## The arrays after the region -/

/-- The projected keys: row `i 0` of the flattened keys through the (transposed) key weights and bias. -/
theorem final0_6 (c : Dev nD) :
    ((dat0 (F := Ideal) V c).arrAt 6 cfg0.N : S16384x1024.Idx → EReal) = fun i =>
      linRow (fun d => (V c (Pipeline.arrRef spec0 0) : S16384x1024.Idx → EReal) (ix2 (i 0) d))
        (fun d e => (V c (Pipeline.arrRef spec0 2) : S1024x1024.Idx → EReal) (ix2 d e))
        (fun e => (V c (Pipeline.arrRef spec0 3) : S1024.Idx → EReal) (ix1 e)) (i 1) := by
  exact (dat0 V c).arrAt_eq_of_cover 6
    (projRows (V c (Pipeline.arrRef spec0 0)) (V c (Pipeline.arrRef spec0 2)) (V c (Pipeline.arrRef spec0 3)))
    (fun t _ => flushed6_eq V c t) cover6

/-- The projected values likewise. -/
theorem final0_7 (c : Dev nD) :
    ((dat0 (F := Ideal) V c).arrAt 7 cfg0.N : S16384x1024.Idx → EReal) = fun i =>
      linRow (fun d => (V c (Pipeline.arrRef spec0 1) : S16384x1024.Idx → EReal) (ix2 (i 0) d))
        (fun d e => (V c (Pipeline.arrRef spec0 4) : S1024x1024.Idx → EReal) (ix2 d e))
        (fun e => (V c (Pipeline.arrRef spec0 5) : S1024.Idx → EReal) (ix1 e)) (i 1) := by
  exact (dat0 V c).arrAt_eq_of_cover 7
    (projRows (V c (Pipeline.arrRef spec0 1)) (V c (Pipeline.arrRef spec0 4)) (V c (Pipeline.arrRef spec0 5)))
    (fun t _ => flushed7_eq V c t) cover7

end Cert.KernelIdeal.Hand

end
-- ==== Proof.Payload1.lean ====
/-
  The attention body as arithmetic at one index of its output block: for a block of 256 query rows of one batch, the
  query projection, the scaled scores against all 2048 projected key rows of that batch, the row softmax numerators and
  their sum, the weighted sum of the projected value rows divided by that sum, and the output projection.
-/
import proofs.«408704_j36756330119358_3_alg».proof.Proof.Gen.KernelIdeal.Skeleton
import proofs.«408704_j36756330119358_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen Cert.Attn

/-! ## The three contractions read at an index

Each product of two matrices into a zero accumulator is, at `(p, q)`, the sum over the contracted coordinate of the
products of the two operands' entries. -/

private theorem lhs_proj_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
private theorem lhs_proj_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
private theorem rhs_proj_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
private theorem rhs_proj_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A `[256, 1024]` by `[1024, 1024]` product at `(p, q)`: `∑ k, a (p, k) · b (k, q)`. -/
private theorem matmul_proj_apply (a : FVec Ideal S256x1024 .bf16) (b : FVec Ideal S1024x1024 .bf16) (p : Fin 256) (q : Fin 1024) :
    matmul dot_S256x1024_S1024x1024_S256x1024_1_0_0_1_n_n none a b (constant (F := Ideal) S256x1024 .f32 0x00000000#32) (ix2 p q)
      = ∑ k : Fin 1024, a (ix2 p k) * b (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun c => Fin.ext (by
    match c with
    | ⟨0, _⟩ => exact lhs_proj_0 _ _
    | ⟨1, _⟩ => exact (lhs_proj_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun c => Fin.ext (by
    match c with
    | ⟨0, _⟩ => exact (rhs_proj_0 _ _).trans hk
    | ⟨1, _⟩ => exact rhs_proj_1 _ _)
  rw [el, er]

private theorem lhs_score_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
private theorem lhs_score_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
private theorem rhs_score_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
private theorem rhs_score_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- A `[256, 1024]` by `[2048, 1024]` product contracted along the second axis of both, at `(p, q)`:
`∑ k, a (p, k) · b (q, k)`. -/
private theorem matmul_score_apply (a : FVec Ideal S256x1024 .bf16) (b : FVec Ideal S2048x1024 .bf16) (p : Fin 256) (q : Fin 2048) :
    matmul dot_S256x1024_S2048x1024_S256x2048_1_1_0_0_n_n none a b (constant (F := Ideal) S256x2048 .f32 0x00000000#32) (ix2 p q)
      = ∑ k : Fin 1024, a (ix2 p k) * b (ix2 q k) := by
  simp only [matmul]
  rw [Ideal.matmul_constant_zero_apply, ← Equiv.sum_comp (ValueIdx.contrEquiv1 dot_S256x1024_S2048x1024_S256x2048_1_1_0_0_n_n 1024 rfl rfl).symm]
  refine Finset.sum_congr rfl fun k _ => ?_
  have hk := ValueIdx.contrEquiv1_symm_val dot_S256x1024_S2048x1024_S256x2048_1_1_0_0_n_n 1024 rfl rfl k
  have el : dot_S256x1024_S2048x1024_S256x2048_1_1_0_0_n_n.lhsIdx (ix2 p q) ((ValueIdx.contrEquiv1 dot_S256x1024_S2048x1024_S256x2048_1_1_0_0_n_n 1024 rfl rfl).symm k) = ix2 p k := funext fun c => Fin.ext (by
    match c with
    | ⟨0, _⟩ => exact lhs_score_0 _ _
    | ⟨1, _⟩ => exact (lhs_score_1 _ _).trans hk)
  have er : dot_S256x1024_S2048x1024_S256x2048_1_1_0_0_n_n.rhsIdx (ix2 p q) ((ValueIdx.contrEquiv1 dot_S256x1024_S2048x1024_S256x2048_1_1_0_0_n_n 1024 rfl rfl).symm k) = ix2 q k := funext fun c => Fin.ext (by
    match c with
    | ⟨0, _⟩ => exact rhs_score_0 _ _
    | ⟨1, _⟩ => exact (rhs_score_1 _ _).trans hk)
  rw [el, er]

private theorem lhs_mix_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
private theorem lhs_mix_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
private theorem rhs_mix_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
private theorem rhs_mix_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- A `[256, 2048]` by `[2048, 1024]` product at `(p, q)`: `∑ k, a (p, k) · b (k, q)`. -/
private theorem matmul_mix_apply (a : FVec Ideal S256x2048 .bf16) (b : FVec Ideal S2048x1024 .bf16) (p : Fin 256) (q : Fin 1024) :
    matmul dot_S256x2048_S2048x1024_S256x1024_1_0_0_1_n_n none a b (constant (F := Ideal) S256x1024 .f32 0x00000000#32) (ix2 p q)
      = ∑ k : Fin 2048, a (ix2 p k) * b (ix2 k q) := by
  simp only [matmul]
  rw [Ideal.matmul_constant_zero_apply, ← Equiv.sum_comp (ValueIdx.contrEquiv1 dot_S256x2048_S2048x1024_S256x1024_1_0_0_1_n_n 2048 rfl rfl).symm]
  refine Finset.sum_congr rfl fun k _ => ?_
  have hk := ValueIdx.contrEquiv1_symm_val dot_S256x2048_S2048x1024_S256x1024_1_0_0_1_n_n 2048 rfl rfl k
  have el : dot_S256x2048_S2048x1024_S256x1024_1_0_0_1_n_n.lhsIdx (ix2 p q) ((ValueIdx.contrEquiv1 dot_S256x2048_S2048x1024_S256x1024_1_0_0_1_n_n 2048 rfl rfl).symm k) = ix2 p k := funext fun c => Fin.ext (by
    match c with
    | ⟨0, _⟩ => exact lhs_mix_0 _ _
    | ⟨1, _⟩ => exact (lhs_mix_1 _ _).trans hk)
  have er : dot_S256x2048_S2048x1024_S256x1024_1_0_0_1_n_n.rhsIdx (ix2 p q) ((ValueIdx.contrEquiv1 dot_S256x2048_S2048x1024_S256x1024_1_0_0_1_n_n 2048 rfl rfl).symm k) = ix2 k q := funext fun c => Fin.ext (by
    match c with
    | ⟨0, _⟩ => exact (rhs_mix_0 _ _).trans hk
    | ⟨1, _⟩ => exact rhs_mix_1 _ _)
  rw [el, er]

/-! ## The column layouts

A vector of row values viewed as a one-column matrix, and that column repeated along every row. -/

/-- An `[a]` array cast to `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions -/

/-- The index a reduction along the second axis reads: row `p` with the coordinate `k` put back. -/
private theorem lift_row (h : S256x2048.Reduces [1] S256) (p : Fin 256) (k : Fin 2048) : h.lift (ix1 p) k = ix2 p k :=
  funext fun c => Fin.ext (by match c with | ⟨0, _⟩ => rfl | ⟨1, _⟩ => rfl)

/-- The pattern of `-∞` is the bottom of the extended reals. -/
private theorem ofBits_neg_inf : Ideal.ofBits .f32 0xFF800000#32 = (⊥ : EReal) := by simp [Ideal.ofBits, Ideal.ieee]

/-- The maximum along each row from `-∞` is the row's maximum. -/
private theorem rowmax_apply (v : FVec Ideal S256x2048 .f32) (h : S256x2048.Reduces [1] S256) (hφ : FKind.Formats .f32)
    (hacc : (0xFF800000#32 : BitVec 32) = 0xFF800000#32) (p : Fin 256) :
    multiReduction (F := Ideal) .maximumf [1] S256 v 0xFF800000#32 h hφ hacc (ix1 p) = rowMax (fun k => v (ix2 p k)) := by
  refine (Ideal.multiReduction_maximumf_single v 0xFF800000#32 h hφ hacc (ix1 p)).trans ?_
  have hf : (v ∘ h.lift (ix1 p)) = fun k : Fin 2048 => v (ix2 p k) := funext fun k => congrArg v (lift_row h p k)
  show (Finset.univ : Finset (Fin 2048)).fold max (Ideal.ofBits .f32 0xFF800000#32) (v ∘ h.lift (ix1 p)) = rowMax (fun k => v (ix2 p k))
  rw [ofBits_neg_inf, hf]
  rfl

/-- The sum along each row from zero is the row's sum. -/
private theorem rowsum_apply (v : FVec Ideal S256x2048 .f32) (h : S256x2048.Reduces [1] S256) (hφ : FKind.Formats .f32)
    (hacc : (0x00000000#32 : BitVec 32) = 0x00000000#32) (p : Fin 256) :
    multiReduction (F := Ideal) .add [1] S256 v 0x00000000#32 h hφ hacc (ix1 p) = ∑ k : Fin 2048, v (ix2 p k) := by
  refine (Ideal.multiReduction_add_single v 0x00000000#32 h hφ hacc (ix1 p)).trans ?_
  exact Finset.sum_congr rfl fun k _ => congrArg v (lift_row h p k)

/-! ## The stages of the attention block, over arbitrary operands -/

/-- A product with a row of biases added to every row: `(∑ k, A (p, k) · B (k, e)) + b e`. -/
private theorem affine_apply (A : FVec Ideal S256x1024 .bf16) (B : FVec Ideal S1024x1024 .bf16) (b : FVec Ideal S1024 .f32)
    (h3 : S1024.ShapeCasts S1x1024) (h4 : S1x1024.Broadcasts S256x1024) (p : Fin 256) (e : Fin 1024) :
    addf (matmul dot_S256x1024_S1024x1024_S256x1024_1_0_0_1_n_n none A B (constant (F := Ideal) S256x1024 .f32 0x00000000#32))
        (broadcastTo S256x1024 (shapeCast S1x1024 b h3) h4) (ix2 p e)
      = (∑ k : Fin 1024, A (ix2 p k) * B (ix2 k e)) + b (ix1 e) := by
  rw [addf_apply, matmul_proj_apply, broadcastTo_1b_ab_apply, shapeCast_a_1a_apply]

/-- The scaled scores: `((∑ d, Q (p, d) · K (k, d)) + B (p, k)) · c`. -/
private theorem scaled_score_apply (Q : FVec Ideal S256x1024 .bf16) (K : FVec Ideal S2048x1024 .bf16) (B : FVec Ideal S256x2048 .f32)
    (p : Fin 256) (k : Fin 2048) :
    mulf (addf (matmul dot_S256x1024_S2048x1024_S256x2048_1_1_0_0_n_n none Q K (constant (F := Ideal) S256x2048 .f32 0x00000000#32)) B)
        (broadcast S256x2048 (Scalar.ofBits (F := Ideal) .f32 0x3E000000#32)) (ix2 p k)
      = ((∑ d : Fin 1024, Q (ix2 p d) * K (ix2 k d)) + B (ix2 p k)) * Ideal.ofBits .f32 0x3E000000#32 := by
  rw [mulf_apply, addf_apply, matmul_score_apply, broadcast_apply]
  rfl

/-- The softmax numerators of a block of score rows: `exp (S (p, k) − max over the row p)`. -/
private theorem softmax_num_apply (S : FVec Ideal S256x2048 .f32) (h : S256x2048.Reduces [1] S256) (hφ : FKind.Formats .f32)
    (hacc : (0xFF800000#32 : BitVec 32) = 0xFF800000#32) (hc : S256.ShapeCasts S256x1) (hb : S256x1.Broadcasts S256x2048)
    (p : Fin 256) (k : Fin 2048) :
    exp (subf S (broadcastTo S256x2048 (shapeCast S256x1 (multiReduction (F := Ideal) .maximumf [1] S256 S 0xFF800000#32 h hφ hacc) hc) hb)) (ix2 p k)
      = expRow (fun k' => S (ix2 p k')) k := by
  show Ideal.exp (S (ix2 p k) - broadcastTo S256x2048 (shapeCast S256x1 (multiReduction (F := Ideal) .maximumf [1] S256 S 0xFF800000#32 h hφ hacc) hc) hb (ix2 p k)) = _
  rw [broadcastTo_a1_ab_apply, shapeCast_a_a1_apply, rowmax_apply]
  rfl

/-- The weighted sum of the value rows divided by the sum of the weights. -/
private theorem weighted_apply (E : FVec Ideal S256x2048 .f32) (V : FVec Ideal S2048x1024 .bf16) (h : S256x2048.Reduces [1] S256)
    (hφ : FKind.Formats .f32) (hacc : (0x00000000#32 : BitVec 32) = 0x00000000#32) (hc : S256.ShapeCasts S256x1)
    (hb : S256x1.Broadcasts S256x1024) (ht : FTy.bits .bf16 < FTy.bits .f32) (p : Fin 256) (d : Fin 1024) :
    truncf .bf16 (divf (matmul dot_S256x2048_S2048x1024_S256x1024_1_0_0_1_n_n none (truncf .bf16 E ht) V (constant (F := Ideal) S256x1024 .f32 0x00000000#32))
        (broadcastTo S256x1024 (shapeCast S256x1 (multiReduction (F := Ideal) .add [1] S256 E 0x00000000#32 h hφ hacc) hc) hb)) ht (ix2 p d)
      = Ideal.div (∑ k : Fin 2048, E (ix2 p k) * V (ix2 k d)) (∑ k : Fin 2048, E (ix2 p k)) := by
  rw [truncf_apply, divf_apply, matmul_mix_apply, broadcastTo_a1_ab_apply, shapeCast_a_a1_apply, rowsum_apply]
  rfl

/-! ## The attention block's stages over the loaded blocks -/

/-- The projected query rows. -/
private def qRows (x0 : Vec Ideal S1x256x1024 .f32) (x1 : Vec Ideal S1024x1024 .bf16) (x2 : Vec Ideal S1024 .f32) :
    FVec Ideal S256x1024 .bf16 :=
  truncf .bf16 (addf (matmul dot_S256x1024_S1024x1024_S256x1024_1_0_0_1_n_n none
      (truncf .bf16 (shapeCast S256x1024 x0 shapeCasts_S1x256x1024_S256x1024 : FVec Ideal S256x1024 .f32) bitsLt_bf16_f32)
      (shapeCast S1024x1024 x1 shapeCasts_S1024x1024_S1024x1024 : FVec Ideal S1024x1024 .bf16) (constant S256x1024 .f32 0x00000000#32))
    (broadcastTo S256x1024 (shapeCast S1x1024 x2 shapeCasts_S1024_S1x1024 : FVec Ideal S1x1024 .f32) broadcasts_S1x1024_S256x1024)) bitsLt_bf16_f32

/-- The scaled score rows. -/
private def scoreRows (x0 : Vec Ideal S1x256x1024 .f32) (x1 : Vec Ideal S1024x1024 .bf16) (x2 : Vec Ideal S1024 .f32)
    (x3 : Vec Ideal S1x2048x1024 .bf16) (x5 : Vec Ideal S1x256x2048 .f32) : FVec Ideal S256x2048 .f32 :=
  mulf (addf (matmul dot_S256x1024_S2048x1024_S256x2048_1_1_0_0_n_n none (qRows x0 x1 x2)
      (shapeCast S2048x1024 x3 shapeCasts_S1x2048x1024_S2048x1024 : FVec Ideal S2048x1024 .bf16) (constant S256x2048 .f32 0x00000000#32))
    (shapeCast S256x2048 x5 shapeCasts_S1x256x2048_S256x2048 : FVec Ideal S256x2048 .f32))
    (broadcast S256x2048 (Scalar.ofBits .f32 0x3E000000#32))

/-- The softmax numerators of the score rows. -/
private def expRows (x0 : Vec Ideal S1x256x1024 .f32) (x1 : Vec Ideal S1024x1024 .bf16) (x2 : Vec Ideal S1024 .f32)
    (x3 : Vec Ideal S1x2048x1024 .bf16) (x5 : Vec Ideal S1x256x2048 .f32) : FVec Ideal S256x2048 .f32 :=
  exp (subf (scoreRows x0 x1 x2 x3 x5) (broadcastTo S256x2048 (shapeCast S256x1
    (multiReduction .maximumf [1] S256 (scoreRows x0 x1 x2 x3 x5) 0xFF800000#32 reduces_S256x2048_S256 (.inl rfl) rfl)
    shapeCasts_S256_S256x1) broadcasts_S256x1_S256x2048))

/-- The block of attended rows, in its stages. -/
private theorem k1_pay2_eq (x0 : Vec Ideal S1x256x1024 .f32) (x1 : Vec Ideal S1024x1024 .bf16) (x2 : Vec Ideal S1024 .f32)
    (x3 x4 : Vec Ideal S1x2048x1024 .bf16) (x5 : Vec Ideal S1x256x2048 .f32) :
    k1_pay2 (F := Ideal) x0 x1 x2 x3 x4 x5
      = truncf .bf16 (divf (matmul dot_S256x2048_S2048x1024_S256x1024_1_0_0_1_n_n none
            (truncf .bf16 (expRows x0 x1 x2 x3 x5) bitsLt_bf16_f32)
            (shapeCast S2048x1024 x4 shapeCasts_S1x2048x1024_S2048x1024 : FVec Ideal S2048x1024 .bf16) (constant S256x1024 .f32 0x00000000#32))
          (broadcastTo S256x1024 (shapeCast S256x1
            (multiReduction .add [1] S256 (expRows x0 x1 x2 x3 x5) 0x00000000#32 reduces_S256x2048_S256 (.inl rfl) rfl)
            shapeCasts_S256_S256x1) broadcasts_S256x1_S256x1024)) bitsLt_bf16_f32 := rfl

/-- The output layer over any block of rows. -/
private theorem k1_pay1_eq (A : FVec Ideal S256x1024 .bf16) (B : FVec Ideal S1024x1024 .bf16) (b : Vec Ideal S1024 .f32) :
    k1_pay1 (F := Ideal) A B b
      = shapeCast S1x256x1024 (addf (matmul dot_S256x1024_S1024x1024_S256x1024_1_0_0_1_n_n none A B (constant S256x1024 .f32 0x00000000#32))
          (broadcastTo S256x1024 (shapeCast S1x1024 b shapeCasts_S1024_S1x1024 : FVec Ideal S1x1024 .f32) broadcasts_S1x1024_S256x1024))
          shapeCasts_S256x1024_S1x256x1024 := rfl

/-- A projected query row is the linear layer of the query row. -/
private theorem qRows_apply (x0 : Vec Ideal S1x256x1024 .f32) (x1 : Vec Ideal S1024x1024 .bf16) (x2 : Vec Ideal S1024 .f32)
    (p : Fin 256) (e : Fin 1024) :
    qRows x0 x1 x2 (ix2 p e)
      = linRow (fun d => (x0 : S1x256x1024.Idx → EReal) (ix3 (0 : Fin 1) p d)) (fun d e' => (x1 : S1024x1024.Idx → EReal) (ix2 d e'))
          (fun e' => (x2 : S1024.Idx → EReal) (ix1 e')) e := by
  unfold qRows linRow
  rw [truncf_apply]
  refine (affine_apply _ _ _ _ _ p e).trans ?_
  refine congrArg₂ (· + ·) (Finset.sum_congr rfl fun k _ => ?_) rfl
  rw [truncf_apply, shapeCast_1ab_ab_apply, shapeCast_self]

/-- A scaled score is the scaled inner product of the projected query row with a key row, plus the bias. -/
private theorem scoreRows_apply (x0 : Vec Ideal S1x256x1024 .f32) (x1 : Vec Ideal S1024x1024 .bf16) (x2 : Vec Ideal S1024 .f32)
    (x3 : Vec Ideal S1x2048x1024 .bf16) (x5 : Vec Ideal S1x256x2048 .f32) (p : Fin 256) (k : Fin 2048) :
    scoreRows x0 x1 x2 x3 x5 (ix2 p k)
      = scoreMul
          (linRow (fun d => (x0 : S1x256x1024.Idx → EReal) (ix3 (0 : Fin 1) p d)) (fun d e' => (x1 : S1024x1024.Idx → EReal) (ix2 d e'))
            (fun e' => (x2 : S1024.Idx → EReal) (ix1 e')))
          (fun k d => (x3 : S1x2048x1024.Idx → EReal) (ix3 (0 : Fin 1) k d))
          (fun k => (x5 : S1x256x2048.Idx → EReal) (ix3 (0 : Fin 1) p k)) k := by
  unfold scoreRows scoreMul rawScore
  refine (scaled_score_apply _ _ _ p k).trans ?_
  rw [shapeCast_1ab_ab_apply]
  refine congrArg₂ (· * ·) (congrArg₂ (· + ·) (Finset.sum_congr rfl fun d _ => ?_) rfl) rfl
  rw [qRows_apply, shapeCast_1ab_ab_apply]

/-- A softmax numerator of the block. -/
private theorem expRows_apply (x0 : Vec Ideal S1x256x1024 .f32) (x1 : Vec Ideal S1024x1024 .bf16) (x2 : Vec Ideal S1024 .f32)
    (x3 : Vec Ideal S1x2048x1024 .bf16) (x5 : Vec Ideal S1x256x2048 .f32) (p : Fin 256) (k : Fin 2048) :
    expRows x0 x1 x2 x3 x5 (ix2 p k)
      = expRow (scoreMul
          (linRow (fun d => (x0 : S1x256x1024.Idx → EReal) (ix3 (0 : Fin 1) p d)) (fun d e' => (x1 : S1024x1024.Idx → EReal) (ix2 d e'))
            (fun e' => (x2 : S1024.Idx → EReal) (ix1 e')))
          (fun k d => (x3 : S1x2048x1024.Idx → EReal) (ix3 (0 : Fin 1) k d))
          (fun k => (x5 : S1x256x2048.Idx → EReal) (ix3 (0 : Fin 1) p k))) k := by
  unfold expRows
  refine (softmax_num_apply _ _ _ _ _ _ p k).trans ?_
  exact congrArg (fun s => expRow s k) (funext fun k' => scoreRows_apply x0 x1 x2 x3 x5 p k')

/-- An entry of the attended rows: the weighted sum of the value rows over the sum of the weights. -/
private theorem k1_pay2_apply (x0 : Vec Ideal S1x256x1024 .f32) (x1 : Vec Ideal S1024x1024 .bf16) (x2 : Vec Ideal S1024 .f32)
    (x3 x4 : Vec Ideal S1x2048x1024 .bf16) (x5 : Vec Ideal S1x256x2048 .f32) (r : Fin 256) (d : Fin 1024) :
    k1_pay2 (F := Ideal) x0 x1 x2 x3 x4 x5 (ix2 r d)
      = attLate
          (scoreMul
            (linRow (fun d => (x0 : S1x256x1024.Idx → EReal) (ix3 (0 : Fin 1) r d)) (fun d e' => (x1 : S1024x1024.Idx → EReal) (ix2 d e'))
              (fun e' => (x2 : S1024.Idx → EReal) (ix1 e')))
            (fun k d => (x3 : S1x2048x1024.Idx → EReal) (ix3 (0 : Fin 1) k d))
            (fun k => (x5 : S1x256x2048.Idx → EReal) (ix3 (0 : Fin 1) r k)))
          (fun k d => (x4 : S1x2048x1024.Idx → EReal) (ix3 (0 : Fin 1) k d)) d := by
  rw [k1_pay2_eq]
  refine (weighted_apply _ _ _ _ _ _ _ _ r d).trans ?_
  unfold attLate
  refine congrArg₂ Ideal.div (Finset.sum_congr rfl fun k _ => ?_) (Finset.sum_congr rfl fun k _ => expRows_apply x0 x1 x2 x3 x5 r k)
  rw [expRows_apply, shapeCast_1ab_ab_apply]

/-- An entry of the output layer over any block of rows. -/
private theorem k1_pay1_apply (A : FVec Ideal S256x1024 .bf16) (B : FVec Ideal S1024x1024 .bf16) (b : Vec Ideal S1024 .f32)
    (r : Fin 256) (e : Fin 1024) :
    k1_pay1 (F := Ideal) A B b (ix3 (0 : Fin 1) r e)
      = (∑ k : Fin 1024, A (ix2 r k) * B (ix2 k e)) + (b : S1024.Idx → EReal) (ix1 e) := by
  rw [k1_pay1_eq, shapeCast_ab_1ab_apply]
  exact affine_apply _ _ _ _ _ r e

/-- Entry `(0, r, e)` of the attention block, from the eight loaded blocks. -/
theorem k1_pay_apply (x0 : Vec Ideal S1x256x1024 .f32) (x1 : Vec Ideal S1024x1024 .bf16) (x2 : Vec Ideal S1024 .f32)
    (x3 x4 : Vec Ideal S1x2048x1024 .bf16) (x5 : Vec Ideal S1x256x2048 .f32) (x6 : Vec Ideal S1024x1024 .bf16)
    (x7 : Vec Ideal S1024 .f32) (r : Fin 256) (e : Fin 1024) :
    (k1_pay1 (F := Ideal) (k1_pay2 x0 x1 x2 x3 x4 x5) (k1_pay3 x6) x7 : S1x256x1024.Idx → EReal) (ix3 (0 : Fin 1) r e)
      = linRow
          (attLate
            (scoreMul
              (linRow (fun d => (x0 : S1x256x1024.Idx → EReal) (ix3 (0 : Fin 1) r d)) (fun d e' => (x1 : S1024x1024.Idx → EReal) (ix2 d e'))
                (fun e' => (x2 : S1024.Idx → EReal) (ix1 e')))
              (fun k d => (x3 : S1x2048x1024.Idx → EReal) (ix3 (0 : Fin 1) k d))
              (fun k => (x5 : S1x256x2048.Idx → EReal) (ix3 (0 : Fin 1) r k)))
            (fun k d => (x4 : S1x2048x1024.Idx → EReal) (ix3 (0 : Fin 1) k d)))
          (fun d e' => (x6 : S1024x1024.Idx → EReal) (ix2 d e')) (fun e' => (x7 : S1024.Idx → EReal) (ix1 e')) e := by
  refine (k1_pay1_apply _ _ _ r e).trans ?_
  refine congrArg₂ (· + ·) (Finset.sum_congr rfl fun k _ => ?_) rfl
  rw [k1_pay2_apply]
  unfold k1_pay3
  rw [shapeCast_self]

end Cert.KernelIdeal.Hand

end
-- ==== Proof.Region1.lean ====
/-
  The attention region: an 8 × 8 grid, point (b, j) owning query rows 256·j … 256·j + 255 of batch b. Its
  blocks are those query rows, the whole projected keys and values of batch b, those rows of the score matrix,
  and the weights whole. Each point writes back its [1, 256, 1024] block of the output and the blocks tile
  it, so the output array ends holding, at (b, n, e), entry e of row (b, n)'s attention result.
-/
import proofs.«408704_j36756330119358_3_alg».proof.Proof.Gen.KernelIdeal.Frame
import proofs.«408704_j36756330119358_3_alg».proof.Proof.Payload1
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Attn

-- the buffer contents the region is entered with
variable (V : (c : Dev nD) → (b : Ref sig .tc) → Buf (Elt Ideal) ((c : Thread nD τ).loc b))

/-! ## The index maps over the grid

Point t = (b, j): the query, score and output blocks sit at block index (b, j, 0), the projected keys and values at (b, 0, 0),
the weights and biases at 0; every block index (b, j, 0) with b, j < 8 is some point's. -/

/-- The zero offset vectors, however the zeros are spelt. -/
private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- Over the 64 points: the query and score blocks move with the output block on the batch and row axes, the projected keys
    and values on the batch axis only, the weights and biases not at all; the output's block index is (b, j, 0), b, j ≤ 7. -/
private theorem idx_facts1 : ∀ t : Fin cfg1.N,
    win1_0.index t (0 : Fin 3) = win1_8.index t (0 : Fin 3)
    ∧ win1_0.index t (1 : Fin 3) = win1_8.index t (1 : Fin 3)
    ∧ win1_0.index t (2 : Fin 3) = win1_8.index t (2 : Fin 3)
    ∧ win1_5.index t (0 : Fin 3) = win1_8.index t (0 : Fin 3)
    ∧ win1_5.index t (1 : Fin 3) = win1_8.index t (1 : Fin 3)
    ∧ win1_5.index t (2 : Fin 3) = 0
    ∧ win1_3.index t (0 : Fin 3) = win1_8.index t (0 : Fin 3)
    ∧ win1_3.index t (1 : Fin 3) = 0 ∧ win1_3.index t (2 : Fin 3) = 0
    ∧ win1_4.index t (0 : Fin 3) = win1_8.index t (0 : Fin 3)
    ∧ win1_4.index t (1 : Fin 3) = 0 ∧ win1_4.index t (2 : Fin 3) = 0
    ∧ win1_1.index t (0 : Fin 2) = 0 ∧ win1_1.index t (1 : Fin 2) = 0
    ∧ win1_2.index t (0 : Fin 1) = 0
    ∧ win1_6.index t (0 : Fin 2) = 0 ∧ win1_6.index t (1 : Fin 2) = 0
    ∧ win1_7.index t (0 : Fin 1) = 0
    ∧ win1_8.index t (0 : Fin 3) ≤ 7 ∧ win1_8.index t (1 : Fin 3) ≤ 7 ∧ win1_8.index t (2 : Fin 3) = 0 :=
  (by decide +kernel : ∀ t : Fin grid1.N, _)

/-- Every block index (b, j, 0) of the output is some point's. -/
private theorem idx_onto1 : ∀ (q0 : Fin 8) (q1 : Fin 8), ∃ t : Fin cfg1.N, win1_8.index t = ![q0.val, q1.val, 0] :=
  (by decide +kernel : ∀ (q0 : Fin 8) (q1 : Fin 8), ∃ t : Fin grid1.N, win1_8.index t = ![q0.val, q1.val, 0])

/-! ## Each block as a part of its array -/

/-- Window 0's block at a point reads the array it is cut from: on each axis the array coordinate is the block's index times
    the block's extent plus the coordinate inside the block. -/
private theorem blk0_apply (c : Dev nD) (t : Fin cfg1.N) (y : S1x256x1024.Idx) (i : S8x2048x1024.Idx)
    (h0 : win1_0.index t (0 : Fin 3) * 1 + 1 * (y 0).val = (i 0).val)
    (h1 : win1_0.index t (1 : Fin 3) * 256 + 1 * (y 1).val = (i 1).val)
    (h2 : win1_0.index t (2 : Fin 3) * 1024 + 1 * (y 2).val = (i 2).val) :
    (iblk1 (F := Ideal) V c 0 t : S1x256x1024.Idx → EReal) y = (V c (Pipeline.arrRef spec1 0) : S8x2048x1024.Idx → EReal) i := by
  unfold iblk1
  rw [View.read_apply]
  show (V c (Pipeline.arrRef spec1 0) : S8x2048x1024.Idx → EReal) _ = _
  congr 1
  funext a
  apply Fin.ext
  match a with
  | ⟨0, _⟩ => exact h0
  | ⟨1, _⟩ => exact h1
  | ⟨2, _⟩ => exact h2

/-- Window 1's block at a point reads the array it is cut from: on each axis the array coordinate is the block's index times
    the block's extent plus the coordinate inside the block. -/
private theorem blk1_apply (c : Dev nD) (t : Fin cfg1.N) (y : S1024x1024.Idx) (i : S1024x1024.Idx)
    (h0 : win1_1.index t (0 : Fin 2) * 1024 + 1 * (y 0).val = (i 0).val)
    (h1 : win1_1.index t (1 : Fin 2) * 1024 + 1 * (y 1).val = (i 1).val) :
    (iblk1 (F := Ideal) V c 1 t : S1024x1024.Idx → EReal) y = (V c (Pipeline.arrRef spec1 1) : S1024x1024.Idx → EReal) i := by
  unfold iblk1
  rw [View.read_apply]
  show (V c (Pipeline.arrRef spec1 1) : S1024x1024.Idx → EReal) _ = _
  congr 1
  funext a
  apply Fin.ext
  match a with
  | ⟨0, _⟩ => exact h0
  | ⟨1, _⟩ => exact h1

/-- Window 2's block at a point reads the array it is cut from: on each axis the array coordinate is the block's index times
    the block's extent plus the coordinate inside the block. -/
private theorem blk2_apply (c : Dev nD) (t : Fin cfg1.N) (y : S1024.Idx) (i : S1024.Idx)
    (h0 : win1_2.index t (0 : Fin 1) * 1024 + 1 * (y 0).val = (i 0).val) :
    (iblk1 (F := Ideal) V c 2 t : S1024.Idx → EReal) y = (V c (Pipeline.arrRef spec1 2) : S1024.Idx → EReal) i := by
  unfold iblk1
  rw [View.read_apply]
  show (V c (Pipeline.arrRef spec1 2) : S1024.Idx → EReal) _ = _
  congr 1
  funext a
  apply Fin.ext
  match a with
  | ⟨0, _⟩ => exact h0

/-- Window 3's block at a point reads the array it is cut from: on each axis the array coordinate is the block's index times
    the block's extent plus the coordinate inside the block. -/
private theorem blk3_apply (c : Dev nD) (t : Fin cfg1.N) (y : S1x2048x1024.Idx) (i : S8x2048x1024.Idx)
    (h0 : win1_3.index t (0 : Fin 3) * 1 + 1 * (y 0).val = (i 0).val)
    (h1 : win1_3.index t (1 : Fin 3) * 2048 + 1 * (y 1).val = (i 1).val)
    (h2 : win1_3.index t (2 : Fin 3) * 1024 + 1 * (y 2).val = (i 2).val) :
    (iblk1 (F := Ideal) V c 3 t : S1x2048x1024.Idx → EReal) y = (V c (Pipeline.arrRef spec1 3) : S8x2048x1024.Idx → EReal) i := by
  unfold iblk1
  rw [View.read_apply]
  show (V c (Pipeline.arrRef spec1 3) : S8x2048x1024.Idx → EReal) _ = _
  congr 1
  funext a
  apply Fin.ext
  match a with
  | ⟨0, _⟩ => exact h0
  | ⟨1, _⟩ => exact h1
  | ⟨2, _⟩ => exact h2

/-- Window 4's block at a point reads the array it is cut from: on each axis the array coordinate is the block's index times
    the block's extent plus the coordinate inside the block. -/
private theorem blk4_apply (c : Dev nD) (t : Fin cfg1.N) (y : S1x2048x1024.Idx) (i : S8x2048x1024.Idx)
    (h0 : win1_4.index t (0 : Fin 3) * 1 + 1 * (y 0).val = (i 0).val)
    (h1 : win1_4.index t (1 : Fin 3) * 2048 + 1 * (y 1).val = (i 1).val)
    (h2 : win1_4.index t (2 : Fin 3) * 1024 + 1 * (y 2).val = (i 2).val) :
    (iblk1 (F := Ideal) V c 4 t : S1x2048x1024.Idx → EReal) y = (V c (Pipeline.arrRef spec1 4) : S8x2048x1024.Idx → EReal) i := by
  unfold iblk1
  rw [View.read_apply]
  show (V c (Pipeline.arrRef spec1 4) : S8x2048x1024.Idx → EReal) _ = _
  congr 1
  funext a
  apply Fin.ext
  match a with
  | ⟨0, _⟩ => exact h0
  | ⟨1, _⟩ => exact h1
  | ⟨2, _⟩ => exact h2

/-- Window 5's block at a point reads the array it is cut from: on each axis the array coordinate is the block's index times
    the block's extent plus the coordinate inside the block. -/
private theorem blk5_apply (c : Dev nD) (t : Fin cfg1.N) (y : S1x256x2048.Idx) (i : S8x2048x2048.Idx)
    (h0 : win1_5.index t (0 : Fin 3) * 1 + 1 * (y 0).val = (i 0).val)
    (h1 : win1_5.index t (1 : Fin 3) * 256 + 1 * (y 1).val = (i 1).val)
    (h2 : win1_5.index t (2 : Fin 3) * 2048 + 1 * (y 2).val = (i 2).val) :
    (iblk1 (F := Ideal) V c 5 t : S1x256x2048.Idx → EReal) y = (V c (Pipeline.arrRef spec1 5) : S8x2048x2048.Idx → EReal) i := by
  unfold iblk1
  rw [View.read_apply]
  show (V c (Pipeline.arrRef spec1 5) : S8x2048x2048.Idx → EReal) _ = _
  congr 1
  funext a
  apply Fin.ext
  match a with
  | ⟨0, _⟩ => exact h0
  | ⟨1, _⟩ => exact h1
  | ⟨2, _⟩ => exact h2

/-- Window 6's block at a point reads the array it is cut from: on each axis the array coordinate is the block's index times
    the block's extent plus the coordinate inside the block. -/
private theorem blk6_apply (c : Dev nD) (t : Fin cfg1.N) (y : S1024x1024.Idx) (i : S1024x1024.Idx)
    (h0 : win1_6.index t (0 : Fin 2) * 1024 + 1 * (y 0).val = (i 0).val)
    (h1 : win1_6.index t (1 : Fin 2) * 1024 + 1 * (y 1).val = (i 1).val) :
    (iblk1 (F := Ideal) V c 6 t : S1024x1024.Idx → EReal) y = (V c (Pipeline.arrRef spec1 6) : S1024x1024.Idx → EReal) i := by
  unfold iblk1
  rw [View.read_apply]
  show (V c (Pipeline.arrRef spec1 6) : S1024x1024.Idx → EReal) _ = _
  congr 1
  funext a
  apply Fin.ext
  match a with
  | ⟨0, _⟩ => exact h0
  | ⟨1, _⟩ => exact h1

/-- Window 7's block at a point reads the array it is cut from: on each axis the array coordinate is the block's index times
    the block's extent plus the coordinate inside the block. -/
private theorem blk7_apply (c : Dev nD) (t : Fin cfg1.N) (y : S1024.Idx) (i : S1024.Idx)
    (h0 : win1_7.index t (0 : Fin 1) * 1024 + 1 * (y 0).val = (i 0).val) :
    (iblk1 (F := Ideal) V c 7 t : S1024.Idx → EReal) y = (V c (Pipeline.arrRef spec1 7) : S1024.Idx → EReal) i := by
  unfold iblk1
  rw [View.read_apply]
  show (V c (Pipeline.arrRef spec1 7) : S1024.Idx → EReal) _ = _
  congr 1
  funext a
  apply Fin.ext
  match a with
  | ⟨0, _⟩ => exact h0

/-! ## What a point writes, and the array the writes leave -/

/-- The array the region leaves: at (b, n, e), entry e of the output projection of row (b, n)'s attention result. -/
private def attnArr (c : Dev nD) : S8x2048x1024.Idx → EReal := fun i =>
  linRow
    (attLate
      (scoreMul
        (linRow (fun d => (V c (Pipeline.arrRef spec1 0) : S8x2048x1024.Idx → EReal) (ix3 (i 0) (i 1) d))
          (fun d e => (V c (Pipeline.arrRef spec1 1) : S1024x1024.Idx → EReal) (ix2 d e))
          (fun e => (V c (Pipeline.arrRef spec1 2) : S1024.Idx → EReal) (ix1 e)))
        (fun k d => (V c (Pipeline.arrRef spec1 3) : S8x2048x1024.Idx → EReal) (ix3 (i 0) k d))
        (fun k => (V c (Pipeline.arrRef spec1 5) : S8x2048x2048.Idx → EReal) (ix3 (i 0) (i 1) k)))
      (fun k d => (V c (Pipeline.arrRef spec1 4) : S8x2048x1024.Idx → EReal) (ix3 (i 0) k d)))
    (fun d e => (V c (Pipeline.arrRef spec1 6) : S1024x1024.Idx → EReal) (ix2 d e))
    (fun e => (V c (Pipeline.arrRef spec1 7) : S1024.Idx → EReal) (ix1 e)) (i 2)

/-- The attention result of one row depends only on the eight families it is built from and the entry read. -/
private theorem attn_congr {x x' : Fin 1024 → EReal} {Wq Wq' : Fin 1024 → Fin 1024 → EReal} {bq bq' : Fin 1024 → EReal}
    {K K' : Fin 2048 → Fin 1024 → EReal} {s s' : Fin 2048 → EReal} {Vv Vv' : Fin 2048 → Fin 1024 → EReal}
    {Wo Wo' : Fin 1024 → Fin 1024 → EReal} {bo bo' : Fin 1024 → EReal} {e e' : Fin 1024}
    (hx : x = x') (hWq : Wq = Wq') (hbq : bq = bq') (hK : K = K') (hs : s = s') (hV : Vv = Vv')
    (hWo : Wo = Wo') (hbo : bo = bo') (he : e = e') :
    linRow (attLate (scoreMul (linRow x Wq bq) K s) Vv) Wo bo e
      = linRow (attLate (scoreMul (linRow x' Wq' bq') K' s') Vv') Wo' bo' e' := by
  subst hx hWq hbq hK hs hV hWo hbo he; rfl

/-- Entry (0, r, e) of the block a point computes is the region's array at the index (b, 256·j + r, e) that the
    point's output block puts it at. -/
private theorem pay_at (c : Dev nD) (t : Fin cfg1.N) (r : Fin 256) (e : Fin 1024) (i : S8x2048x1024.Idx)
    (hi0 : (i 0).val = win1_8.index t (0 : Fin 3) * 1 + 1 * 0)
    (hi1 : (i 1).val = win1_8.index t (1 : Fin 3) * 256 + 1 * r.val)
    (hi2 : (i 2).val = win1_8.index t (2 : Fin 3) * 1024 + 1 * e.val) :
    (k1_pay1 (F := Ideal) (k1_pay2 (iblk1 V c 0 t) (iblk1 V c 1 t) (iblk1 V c 2 t) (iblk1 V c 3 t) (iblk1 V c 4 t) (iblk1 V c 5 t))
        (k1_pay3 (iblk1 V c 6 t)) (iblk1 V c 7 t) : S1x256x1024.Idx → EReal) (ix3 (0 : Fin 1) r e)
      = attnArr V c i := by
  obtain ⟨a00, a01, a02, a50, a51, a52, a30, a31, a32, a40, a41, a42, a10, a11, a20, a60, a61, a70, b0, b1, b2⟩ := idx_facts1 t
  refine (k1_pay_apply _ _ _ _ _ _ _ _ r e).trans ?_
  unfold attnArr
  refine attn_congr ?_ ?_ ?_ ?_ ?_ ?_ ?_ ?_ ?_
  · funext d
    refine blk0_apply V c t _ _ ?_ ?_ ?_
    · show win1_0.index t (0 : Fin 3) * 1 + 1 * 0 = (i 0).val; omega
    · show win1_0.index t (1 : Fin 3) * 256 + 1 * r.val = (i 1).val; omega
    · show win1_0.index t (2 : Fin 3) * 1024 + 1 * d.val = d.val; omega
  · funext d e'
    refine blk1_apply V c t _ _ ?_ ?_
    · show win1_1.index t (0 : Fin 2) * 1024 + 1 * d.val = d.val; omega
    · show win1_1.index t (1 : Fin 2) * 1024 + 1 * e'.val = e'.val; omega
  · funext e'
    refine blk2_apply V c t _ _ ?_
    show win1_2.index t (0 : Fin 1) * 1024 + 1 * e'.val = e'.val; omega
  · funext k d
    refine blk3_apply V c t _ _ ?_ ?_ ?_
    · show win1_3.index t (0 : Fin 3) * 1 + 1 * 0 = (i 0).val; omega
    · show win1_3.index t (1 : Fin 3) * 2048 + 1 * k.val = k.val; omega
    · show win1_3.index t (2 : Fin 3) * 1024 + 1 * d.val = d.val; omega
  · funext k
    refine blk5_apply V c t _ _ ?_ ?_ ?_
    · show win1_5.index t (0 : Fin 3) * 1 + 1 * 0 = (i 0).val; omega
    · show win1_5.index t (1 : Fin 3) * 256 + 1 * r.val = (i 1).val; omega
    · show win1_5.index t (2 : Fin 3) * 2048 + 1 * k.val = k.val; omega
  · funext k d
    refine blk4_apply V c t _ _ ?_ ?_ ?_
    · show win1_4.index t (0 : Fin 3) * 1 + 1 * 0 = (i 0).val; omega
    · show win1_4.index t (1 : Fin 3) * 2048 + 1 * k.val = k.val; omega
    · show win1_4.index t (2 : Fin 3) * 1024 + 1 * d.val = d.val; omega
  · funext d e'
    refine blk6_apply V c t _ _ ?_ ?_
    · show win1_6.index t (0 : Fin 2) * 1024 + 1 * d.val = d.val; omega
    · show win1_6.index t (1 : Fin 2) * 1024 + 1 * e'.val = e'.val; omega
  · funext e'
    refine blk7_apply V c t _ _ ?_
    show win1_7.index t (0 : Fin 1) * 1024 + 1 * e'.val = e'.val; omega
  · exact Fin.ext (by omega)

/-- What a point writes back is its block of the region's array. -/
private theorem flushed1_8_eq (c : Dev nD) (t : Fin cfg1.N) :
    (dat1 (F := Ideal) V c).flushed 8 t = ((cfg1.win 8).blk t).view.read (Elt Ideal) (attnArr V c) := by
  show (cfg1.win 8).cut (grid1.coords t) ((dat1 V c).after 8 t) = _
  rw [after1_8]
  unfold out1_8
  rw [View.canon_unit_zero hz3]
  simp only [View.ld_unit_zero (S := S1x256x1024) hz3, View.ld_unit_zero (S := S1024x1024) hz2,
    View.ld_unit_zero (S := S1024) hz1, View.ld_unit_zero (S := S1x2048x1024) hz3,
    View.ld_unit_zero (S := S1x256x2048) hz3]
  funext y
  have hy : (y : S1x256x1024.Idx) = ix3 (0 : Fin 1) (y 1) (y 2) := by
    funext a
    match a with
    | ⟨0, _⟩ => exact Subsingleton.elim (α := Fin 1) _ _
    | ⟨1, _⟩ => rfl
    | ⟨2, _⟩ => rfl
  rw [View.read_apply]
  show (k1_pay1 (F := Ideal) (k1_pay2 (iblk1 V c 0 t) (iblk1 V c 1 t) (iblk1 V c 2 t) (iblk1 V c 3 t) (iblk1 V c 4 t) (iblk1 V c 5 t))
        (k1_pay3 (iblk1 V c 6 t)) (iblk1 V c 7 t) : S1x256x1024.Idx → EReal) y = attnArr V c (((cfg1.win 8).blk t).view.emb y)
  rw [hy]
  refine pay_at V c t (y 1) (y 2) _ ?_ ?_ ?_
  · rfl
  · rfl
  · rfl

/-- An index of the output array is in a point's block iff each coordinate is in the block's range on its axis. -/
private theorem mem_blk1_8 (t : Fin cfg1.N) (i : S8x2048x1024.Idx) :
    i ∈ ((cfg1.win 8).blk t).view.set ↔ ∀ a : Fin 3, win1_8.index t a * S1x256x1024.size a ≤ (i a).val
      ∧ (i a).val < win1_8.index t a * S1x256x1024.size a + S1x256x1024.size a := by
  show i ∈ ((View.whole main_v13).slice (win1_8.rect t)).set ↔ _
  rw [View.set_slice_whole, Rect.mem_set_unit]
  exact Iff.rfl

/-- Index (b, n, e) is in the block of the point with block index (b, n / 256, 0): the blocks tile the array. -/
private theorem covered1_8 (i : S8x2048x1024.Idx) :
    ∃ t : Fin cfg1.N, (cfg1.win 8).flush t = true ∧ i ∈ ((cfg1.win 8).blk t).view.set := by
  have hi0 : (i 0).val < 8 := (i 0).isLt
  have hi1 : (i 1).val < 2048 := (i 1).isLt
  have hi2 : (i 2).val < 1024 := (i 2).isLt
  obtain ⟨t, ht⟩ := idx_onto1 ⟨(i 0).val, hi0⟩ ⟨(i 1).val / 256, by omega⟩
  have q0 : win1_8.index t (0 : Fin 3) = (i 0).val := congrFun ht 0
  have q1 : win1_8.index t (1 : Fin 3) = (i 1).val / 256 := congrFun ht 1
  have q2 : win1_8.index t (2 : Fin 3) = 0 := congrFun ht 2
  refine ⟨t, flush1_8 t, ?_⟩
  rw [mem_blk1_8]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 256 ≤ (i 1).val ∧ (i 1).val < win1_8.index t (1 : Fin 3) * 256 + 256; omega
  | ⟨2, _⟩ => show win1_8.index t (2 : Fin 3) * 1024 ≤ (i 2).val ∧ (i 2).val < win1_8.index t (2 : Fin 3) * 1024 + 1024; omega

/-- The output array after the region, as one function of the arrays it was entered with. -/
theorem final1_8 (c : Dev nD) :
    ((dat1 (F := Ideal) V c).arrAt 8 cfg1.N : S8x2048x1024.Idx → EReal) = fun i =>
      linRow
        (attLate
          (scoreMul
            (linRow (fun d => (V c (Pipeline.arrRef spec1 0) : S8x2048x1024.Idx → EReal) (ix3 (i 0) (i 1) d))
              (fun d e => (V c (Pipeline.arrRef spec1 1) : S1024x1024.Idx → EReal) (ix2 d e))
              (fun e => (V c (Pipeline.arrRef spec1 2) : S1024.Idx → EReal) (ix1 e)))
            (fun k d => (V c (Pipeline.arrRef spec1 3) : S8x2048x1024.Idx → EReal) (ix3 (i 0) k d))
            (fun k => (V c (Pipeline.arrRef spec1 5) : S8x2048x2048.Idx → EReal) (ix3 (i 0) (i 1) k)))
          (fun k d => (V c (Pipeline.arrRef spec1 4) : S8x2048x1024.Idx → EReal) (ix3 (i 0) k d)))
        (fun d e => (V c (Pipeline.arrRef spec1 6) : S1024x1024.Idx → EReal) (ix2 d e))
        (fun e => (V c (Pipeline.arrRef spec1 7) : S1024.Idx → EReal) (ix1 e)) (i 2) :=
  (dat1 (F := Ideal) V c).arrAt_eq_of_cover 8 (attnArr V c) (fun t _ => flushed1_8_eq V c t) covered1_8

end Cert.KernelIdeal.Hand

end
-- ==== Proof.KernelValue.lean ====
/-
  The kernel program's result buffer after both regions, as one function of the launch memory.

  The host transposes the four weight matrices and flattens keys and values to [16384, 1024]; the projection region
  leaves the projected keys and values (Region0); the host reshapes them back to [8, 2048, 1024]; the attention
  region leaves the result (Region1). Reading each array the attention region is entered with back to the launch
  memory gives `resultLate` of the twelve arguments.
-/
import proofs.«408704_j36756330119358_3_alg».proof.Proof.Gen.KernelIdeal.Frame
import proofs.«408704_j36756330119358_3_alg».proof.Proof.Region0
import proofs.«408704_j36756330119358_3_alg».proof.Proof.Region1
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Attn

variable (m : (ℓ : Loc nD τ sig) → Buf (Elt Ideal) ℓ) (ρ : Dev nD → PrngReg)

/-! ## The two reshapes at an index

Flattening [8, 2048, 1024] to [16384, 1024] keeps the row-major position: row `2048·b + k` of the flat array is row
`(b, k)` of the batch, and back. -/

theorem flatten_apply {α : Type} (x : S8x2048x1024.Idx → α) (b : Fin 8) (k : Fin 2048) (d : Fin 1024) (r : Fin 16384)
    (hr : r.val = 2048 * b.val + k.val) :
    shapeCast S16384x1024 x shapeCasts_S8x2048x1024_S16384x1024 (ix2 r d) = x (ix3 b k d) := by
  refine shapeCast_apply x _ _ _ ?_
  rw [Shape.rowMajor_val_three, Shape.rowMajor_val_two]
  show (b.val * 2048 + k.val) * 1024 + d.val = r.val * 1024 + d.val
  omega

theorem unflatten_apply {α : Type} (y : S16384x1024.Idx → α) (b : Fin 8) (k : Fin 2048) (d : Fin 1024) (r : Fin 16384)
    (hr : r.val = 2048 * b.val + k.val) :
    shapeCast S8x2048x1024 y shapeCasts_S16384x1024_S8x2048x1024 (ix3 b k d) = y (ix2 r d) := by
  refine shapeCast_apply y _ _ _ ?_
  rw [Shape.rowMajor_val_three, Shape.rowMajor_val_two]
  show r.val * 1024 + d.val = (b.val * 2048 + k.val) * 1024 + d.val
  omega

/-- A weight matrix transposed and narrowed reads, at `(d, e)`, the matrix at `(e, d)`. -/
theorem transposed_apply (W : FVec Ideal S1024x1024 .f32) (d e : Fin 1024) :
    (truncf (F := Ideal) .bf16 (transpose S1024x1024 [1, 0] W transposes_S1024x1024_S1024x1024_1_0) bitsLt_bf16_f32 : S1024x1024.Idx → EReal) (ix2 d e)
      = (W : S1024x1024.Idx → EReal) (ix2 e d) :=
  transpose_ix2_apply W transposes_S1024x1024_S1024x1024_1_0 d e

/-! ## The first host stretch: what the projection region is entered with -/

theorem V1_v8 (c : Dev nD) : (V1 m ρ c main_v8 : S16384x1024.Idx → EReal)
    = shapeCast S16384x1024 (m ((c : Thread nD τ).loc main_arg1)) shapeCasts_S8x2048x1024_S16384x1024 := by
  show StableHlo.after hostOps0 (W0 m ρ c) (Proc.devRef .tc main_v8) = _
  after_results
  rfl

theorem V1_v9 (c : Dev nD) : (V1 m ρ c main_v9 : S16384x1024.Idx → EReal)
    = shapeCast S16384x1024 (m ((c : Thread nD τ).loc main_arg2)) shapeCasts_S8x2048x1024_S16384x1024 := by
  show StableHlo.after hostOps0 (W0 m ρ c) (Proc.devRef .tc main_v9) = _
  after_results
  rfl

theorem W1_v1 (c : Dev nD) : (W1 m ρ c (Proc.devRef .tc main_v1) : S1024x1024.Idx → EReal)
    = truncf (F := Ideal) .bf16 (transpose S1024x1024 [1, 0] (m ((c : Thread nD τ).loc main_arg4)) transposes_S1024x1024_S1024x1024_1_0) bitsLt_bf16_f32 := by
  show StableHlo.after hostOps0 (W0 m ρ c) (Proc.devRef .tc main_v1) = _
  after_results

theorem W1_v3 (c : Dev nD) : (W1 m ρ c (Proc.devRef .tc main_v3) : S1024x1024.Idx → EReal)
    = truncf (F := Ideal) .bf16 (transpose S1024x1024 [1, 0] (m ((c : Thread nD τ).loc main_arg6)) transposes_S1024x1024_S1024x1024_1_0) bitsLt_bf16_f32 := by
  show StableHlo.after hostOps0 (W0 m ρ c) (Proc.devRef .tc main_v3) = _
  after_results

theorem W1_v5 (c : Dev nD) : (W1 m ρ c (Proc.devRef .tc main_v5) : S1024x1024.Idx → EReal)
    = truncf (F := Ideal) .bf16 (transpose S1024x1024 [1, 0] (m ((c : Thread nD τ).loc main_arg8)) transposes_S1024x1024_S1024x1024_1_0) bitsLt_bf16_f32 := by
  show StableHlo.after hostOps0 (W0 m ρ c) (Proc.devRef .tc main_v5) = _
  after_results

theorem W1_v7 (c : Dev nD) : (W1 m ρ c (Proc.devRef .tc main_v7) : S1024x1024.Idx → EReal)
    = truncf (F := Ideal) .bf16 (transpose S1024x1024 [1, 0] (m ((c : Thread nD τ).loc main_arg10)) transposes_S1024x1024_S1024x1024_1_0) bitsLt_bf16_f32 := by
  show StableHlo.after hostOps0 (W0 m ρ c) (Proc.devRef .tc main_v7) = _
  after_results

/-- No host operation of the first stretch writes an argument. -/
theorem W1_arg (c : Dev nD) :
    W1 m ρ c (Proc.devRef .tc main_arg0) = (m ((c : Thread nD τ).loc main_arg0)) ∧ W1 m ρ c (Proc.devRef .tc main_arg3) = (m ((c : Thread nD τ).loc main_arg3))
    ∧ W1 m ρ c (Proc.devRef .tc main_arg5) = (m ((c : Thread nD τ).loc main_arg5)) ∧ W1 m ρ c (Proc.devRef .tc main_arg7) = (m ((c : Thread nD τ).loc main_arg7))
    ∧ W1 m ρ c (Proc.devRef .tc main_arg9) = (m ((c : Thread nD τ).loc main_arg9)) ∧ W1 m ρ c (Proc.devRef .tc main_arg11) = (m ((c : Thread nD τ).loc main_arg11)) := by
  refine ⟨?_, ?_, ?_, ?_, ?_, ?_⟩ <;>
    (first
      | (show StableHlo.after hostOps0 (W0 m ρ c) (Proc.devRef .tc main_arg0) = _; after_results; done)
      | (show StableHlo.after hostOps0 (W0 m ρ c) (Proc.devRef .tc main_arg3) = _; after_results; done)
      | (show StableHlo.after hostOps0 (W0 m ρ c) (Proc.devRef .tc main_arg5) = _; after_results; done)
      | (show StableHlo.after hostOps0 (W0 m ρ c) (Proc.devRef .tc main_arg7) = _; after_results; done)
      | (show StableHlo.after hostOps0 (W0 m ρ c) (Proc.devRef .tc main_arg9) = _; after_results; done)
      | (show StableHlo.after hostOps0 (W0 m ρ c) (Proc.devRef .tc main_arg11) = _; after_results; done))

/-! ## Congruence of the row formulas in their function arguments -/

theorem lin_congr {x x' : Fin 1024 → EReal} {WT WT' : Fin 1024 → Fin 1024 → EReal} {bb bb' : Fin 1024 → EReal} (e : Fin 1024)
    (h1 : x = x') (h2 : WT = WT') (h3 : bb = bb') : linRow x WT bb e = linRow x' WT' bb' e := by
  subst h1 h2 h3; rfl

theorem row_congr {q q' : Fin 1024 → EReal} {WqT WqT' : Fin 1024 → Fin 1024 → EReal} {bq bq' : Fin 1024 → EReal}
    {K K' V V' : Fin 2048 → Fin 1024 → EReal} {bias bias' : Fin 2048 → EReal} {WoT WoT' : Fin 1024 → Fin 1024 → EReal}
    {bo bo' : Fin 1024 → EReal} (e : Fin 1024)
    (h1 : q = q') (h2 : WqT = WqT') (h3 : bq = bq') (h4 : K = K') (h5 : bias = bias') (h6 : V = V') (h7 : WoT = WoT')
    (h8 : bo = bo') :
    linRow (attLate (scoreMul (linRow q WqT bq) K bias) V) WoT bo e
      = linRow (attLate (scoreMul (linRow q' WqT' bq') K' bias') V') WoT' bo' e := by
  subst h1 h2 h3 h4 h5 h6 h7 h8; rfl

/-! ## After the projection region

Row `2048·b + k` of each output of the projection region is row `(b, k)` of its input through its linear layer. -/

theorem projK_apply (c : Dev nD) (b : Fin 8) (k : Fin 2048) (d : Fin 1024) (r : Fin 16384) (hr : r.val = 2048 * b.val + k.val) :
    (W2 m ρ c (Proc.devRef .tc main_v10_0) : S16384x1024.Idx → EReal) (ix2 r d)
      = proj (m ((c : Thread nD τ).loc main_arg1)) (m ((c : Thread nD τ).loc main_arg6)) (m ((c : Thread nD τ).loc main_arg7)) b k d := by
  have e : (W2 m ρ c (Proc.devRef .tc main_v10_0) : S16384x1024.Idx → EReal) = (dat0 (V1 m ρ) c).arrAt 6 cfg0.N := W2_arr m ρ c 6
  rw [e, final0_6 (V1 m ρ) c]
  show linRow (fun d' => (V1 m ρ c main_v8 : S16384x1024.Idx → EReal) (ix2 r d'))
      (fun d' e' => (W1 m ρ c (Proc.devRef .tc main_v3) : S1024x1024.Idx → EReal) (ix2 d' e'))
      (fun e' => (W1 m ρ c (Proc.devRef .tc main_arg7) : S1024.Idx → EReal) (ix1 e')) d = _
  rw [V1_v8, W1_v3, (W1_arg m ρ c).2.2.2.1]
  unfold proj
  exact lin_congr d (funext fun d' => flatten_apply _ b k d' r hr)
    (funext fun d' => funext fun e' => transposed_apply _ d' e') rfl

theorem projV_apply (c : Dev nD) (b : Fin 8) (k : Fin 2048) (d : Fin 1024) (r : Fin 16384) (hr : r.val = 2048 * b.val + k.val) :
    (W2 m ρ c (Proc.devRef .tc main_v10_1) : S16384x1024.Idx → EReal) (ix2 r d)
      = proj (m ((c : Thread nD τ).loc main_arg2)) (m ((c : Thread nD τ).loc main_arg8)) (m ((c : Thread nD τ).loc main_arg9)) b k d := by
  have e : (W2 m ρ c (Proc.devRef .tc main_v10_1) : S16384x1024.Idx → EReal) = (dat0 (V1 m ρ) c).arrAt 7 cfg0.N := W2_arr m ρ c 7
  rw [e, final0_7 (V1 m ρ) c]
  show linRow (fun d' => (V1 m ρ c main_v9 : S16384x1024.Idx → EReal) (ix2 r d'))
      (fun d' e' => (W1 m ρ c (Proc.devRef .tc main_v5) : S1024x1024.Idx → EReal) (ix2 d' e'))
      (fun e' => (W1 m ρ c (Proc.devRef .tc main_arg9) : S1024.Idx → EReal) (ix1 e')) d = _
  rw [V1_v9, W1_v5, (W1_arg m ρ c).2.2.2.2.1]
  unfold proj
  exact lin_congr d (funext fun d' => flatten_apply _ b k d' r hr)
    (funext fun d' => funext fun e' => transposed_apply _ d' e') rfl

/-! ## The second host stretch: what the attention region is entered with -/

theorem V3_v11_apply (c : Dev nD) (b : Fin 8) (k : Fin 2048) (d : Fin 1024) :
    (V3 m ρ c main_v11 : S8x2048x1024.Idx → EReal) (ix3 b k d) = proj (m ((c : Thread nD τ).loc main_arg1)) (m ((c : Thread nD τ).loc main_arg6)) (m ((c : Thread nD τ).loc main_arg7)) b k d := by
  have e : (V3 m ρ c main_v11 : S8x2048x1024.Idx → EReal)
      = shapeCast S8x2048x1024 (W2 m ρ c (Proc.devRef .tc main_v10_0)) shapeCasts_S16384x1024_S8x2048x1024 := by
    show StableHlo.after hostOps1 (W2 m ρ c) (Proc.devRef .tc main_v11) = _
    after_results
    rfl
  rw [e, unflatten_apply _ b k d ⟨2048 * b.val + k.val, by omega⟩ rfl]
  exact projK_apply m ρ c b k d _ rfl

theorem V3_v12_apply (c : Dev nD) (b : Fin 8) (k : Fin 2048) (d : Fin 1024) :
    (V3 m ρ c main_v12 : S8x2048x1024.Idx → EReal) (ix3 b k d) = proj (m ((c : Thread nD τ).loc main_arg2)) (m ((c : Thread nD τ).loc main_arg8)) (m ((c : Thread nD τ).loc main_arg9)) b k d := by
  have e : (V3 m ρ c main_v12 : S8x2048x1024.Idx → EReal)
      = shapeCast S8x2048x1024 (W2 m ρ c (Proc.devRef .tc main_v10_1)) shapeCasts_S16384x1024_S8x2048x1024 := by
    show StableHlo.after hostOps1 (W2 m ρ c) (Proc.devRef .tc main_v12) = _
    after_results
    rfl
  rw [e, unflatten_apply _ b k d ⟨2048 * b.val + k.val, by omega⟩ rfl]
  exact projV_apply m ρ c b k d _ rfl

/-- The other arrays the attention region reads are written by neither the second stretch nor the projection region. -/
theorem V3_arg0 (c : Dev nD) : V3 m ρ c main_arg0 = (m ((c : Thread nD τ).loc main_arg0)) := by
  show StableHlo.after hostOps1 (W2 m ρ c) (Proc.devRef .tc main_arg0) = _
  after_results
  exact (W2_of_ne m ρ c main_arg0 (by decide)).trans (W1_arg m ρ c).1

theorem V3_arg3 (c : Dev nD) : V3 m ρ c main_arg3 = (m ((c : Thread nD τ).loc main_arg3)) := by
  show StableHlo.after hostOps1 (W2 m ρ c) (Proc.devRef .tc main_arg3) = _
  after_results
  exact (W2_of_ne m ρ c main_arg3 (by decide)).trans (W1_arg m ρ c).2.1

theorem V3_arg5 (c : Dev nD) : V3 m ρ c main_arg5 = (m ((c : Thread nD τ).loc main_arg5)) := by
  show StableHlo.after hostOps1 (W2 m ρ c) (Proc.devRef .tc main_arg5) = _
  after_results
  exact (W2_of_ne m ρ c main_arg5 (by decide)).trans (W1_arg m ρ c).2.2.1

theorem V3_arg11 (c : Dev nD) : V3 m ρ c main_arg11 = (m ((c : Thread nD τ).loc main_arg11)) := by
  show StableHlo.after hostOps1 (W2 m ρ c) (Proc.devRef .tc main_arg11) = _
  after_results
  exact (W2_of_ne m ρ c main_arg11 (by decide)).trans (W1_arg m ρ c).2.2.2.2.2

theorem V3_v1_apply (c : Dev nD) (d e : Fin 1024) :
    (V3 m ρ c main_v1 : S1024x1024.Idx → EReal) (ix2 d e) = ((m ((c : Thread nD τ).loc main_arg4)) : S1024x1024.Idx → EReal) (ix2 e d) := by
  have h : (V3 m ρ c main_v1 : S1024x1024.Idx → EReal) = W1 m ρ c (Proc.devRef .tc main_v1) := by
    show StableHlo.after hostOps1 (W2 m ρ c) (Proc.devRef .tc main_v1) = _
    after_results
    exact W2_of_ne m ρ c main_v1 (by decide)
  rw [h, W1_v1]
  exact transposed_apply _ d e

theorem V3_v7_apply (c : Dev nD) (d e : Fin 1024) :
    (V3 m ρ c main_v7 : S1024x1024.Idx → EReal) (ix2 d e) = ((m ((c : Thread nD τ).loc main_arg10)) : S1024x1024.Idx → EReal) (ix2 e d) := by
  have h : (V3 m ρ c main_v7 : S1024x1024.Idx → EReal) = W1 m ρ c (Proc.devRef .tc main_v7) := by
    show StableHlo.after hostOps1 (W2 m ρ c) (Proc.devRef .tc main_v7) = _
    after_results
    exact W2_of_ne m ρ c main_v7 (by decide)
  rw [h, W1_v7]
  exact transposed_apply _ d e

/-! ## The result -/

/-- The result buffer at the last boundary's contents is `resultLate` of the argument arrays as launched. -/
theorem W4_result (c : Dev nD) :
    (W4 m ρ c (Proc.devRef .tc main_v13) : S8x2048x1024.Idx → EReal)
      = resultLate (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  have e : (W4 m ρ c (Proc.devRef .tc main_v13) : S8x2048x1024.Idx → EReal) = (dat1 (V3 m ρ) c).arrAt 8 cfg1.N := W4_arr m ρ c 8
  rw [e, final1_8 (V3 m ρ) c]
  funext i
  obtain ⟨b, n, e', rfl⟩ : ∃ (b : Fin 8) (n : Fin 2048) (e' : Fin 1024), i = ix3 b n e' := ⟨i 0, i 1, i 2, eq_ix3 i⟩
  show linRow
      (attLate
        (scoreMul
          (linRow (fun d => (V3 m ρ c main_arg0 : S8x2048x1024.Idx → EReal) (ix3 b n d)) (fun d e => (V3 m ρ c main_v1 : S1024x1024.Idx → EReal) (ix2 d e))
            (fun e => (V3 m ρ c main_arg5 : S1024.Idx → EReal) (ix1 e)))
          (fun k d => (V3 m ρ c main_v11 : S8x2048x1024.Idx → EReal) (ix3 b k d))
          (fun k => (V3 m ρ c main_arg3 : S8x2048x2048.Idx → EReal) (ix3 b n k)))
        (fun k d => (V3 m ρ c main_v12 : S8x2048x1024.Idx → EReal) (ix3 b k d)))
      (fun d e => (V3 m ρ c main_v7 : S1024x1024.Idx → EReal) (ix2 d e)) (fun e => (V3 m ρ c main_arg11 : S1024.Idx → EReal) (ix1 e)) e' = _
  rw [V3_arg0, V3_arg5, V3_arg3, V3_arg11]
  show _ = linRow
      (attLate
        (scoreMul (proj (m ((c : Thread nD τ).loc main_arg0)) (m ((c : Thread nD τ).loc main_arg4)) (m ((c : Thread nD τ).loc main_arg5)) b n)
          (fun k => proj (m ((c : Thread nD τ).loc main_arg1)) (m ((c : Thread nD τ).loc main_arg6)) (m ((c : Thread nD τ).loc main_arg7)) b k)
          (fun k => ((m ((c : Thread nD τ).loc main_arg3)) : S8x2048x2048.Idx → EReal) (ix3 b n k)))
        (fun k => proj (m ((c : Thread nD τ).loc main_arg2)) (m ((c : Thread nD τ).loc main_arg8)) (m ((c : Thread nD τ).loc main_arg9)) b k))
      (fun d e => ((m ((c : Thread nD τ).loc main_arg10)) : S1024x1024.Idx → EReal) (ix2 e d)) (fun e => ((m ((c : Thread nD τ).loc main_arg11)) : S1024.Idx → EReal) (ix1 e)) e'
  unfold proj
  exact row_congr e' rfl (funext fun d => funext fun e => V3_v1_apply m ρ c d e) rfl
    (funext fun k => funext fun d => V3_v11_apply m ρ c b k d) rfl
    (funext fun k => funext fun d => V3_v12_apply m ρ c b k d)
    (funext fun d => funext fun e => V3_v7_apply m ρ c d e) rfl

end Cert.KernelIdeal.Hand

end
-- ==== Proof.RefValue.lean ====
/-
  The reference's result, read one operation at a time, is the "early" arrangement of the specification:
  three linear layers, scores divided by √64, a row maximum from −∞, exponentials, their row sums, every weight
  divided by its row sum, the weighted value sum, and the output layer.
-/
import proofs.«408704_j36756330119358_3_alg».proof.Defs
import proofs.«408704_j36756330119358_3_alg».proof.Proof.Gen.ReferenceIdeal.Read
import proofs.«408704_j36756330119358_3_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Idealize.ShloMosaic Idealize.ShloMosaic.TcCoe Idealize.ShloMosaic.ValueIdx
open Cert.ReferenceIdeal Cert.ReferenceIdeal.Gen Cert.ReferenceIdeal.Read Cert.Attn

section Stages

/-! ## A linear layer

The product with the weight's second axis contracted, plus the bias spread over the rows, is at entry (b, n, e) the sum
over d of x (b, n, d) · W (e, d), plus bias e. The reference has this shape four times; the second, third and fourth are
the first with other operands. -/

section Linear
variable (x : (⟨S8x2048x1024, .f32⟩ : BufTy).Contents (Elt Ideal)) (W : (⟨S1024x1024, .f32⟩ : BufTy).Contents (Elt Ideal)) (bias : (⟨S1024, .f32⟩ : BufTy).Contents (Elt Ideal))

theorem lin_eq (b : Fin 8) (n : Fin 2048) (e : Fin 1024) :
    val_main_v3 (F := Ideal) x W bias (ix3 b n e) = proj x W bias b n e := by
  rw [val_main_v3_apply, val_main_v0_apply, val_main_v2_apply, val_main_v1_apply]
  have e1 : ∀ k : Fin 1024, lidx_main_v0 (ix3 b n e) k = ix3 b n k := fun k => funext fun a => Fin.ext (by
    match a with | ⟨0, _⟩ => rfl | ⟨1, _⟩ => rfl | ⟨2, _⟩ => rfl)
  have e2 : ∀ k : Fin 1024, ridx_main_v0 (ix3 b n e) k = ix2 e k := fun k => funext fun a => Fin.ext (by
    match a with | ⟨0, _⟩ => rfl | ⟨1, _⟩ => rfl)
  have e3 : idx_main_v1 (idx_main_v2 (ix3 b n e)) = ix1 e := funext fun a => Fin.ext (by
    match a with | ⟨0, _⟩ => rfl)
  unfold proj linRow
  simp only [Ideal.addf_def, e1, e2, e3]

theorem v7_eq : val_main_v7 (F := Ideal) x W bias = val_main_v3 (F := Ideal) x W bias := rfl

theorem v11_eq : val_main_v11 (F := Ideal) x W bias = val_main_v3 (F := Ideal) x W bias := rfl

end Linear

variable (x0 x1 x2 : (⟨S8x2048x1024, .f32⟩ : BufTy).Contents (Elt Ideal)) (x3 : (⟨S8x2048x2048, .f32⟩ : BufTy).Contents (Elt Ideal))
  (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal))

/-! ## The scores -/

/-- Query row (b, q) against key row (b, k), plus the additive score: the unscaled score. -/
theorem v13_eq (b : Fin 8) (q k : Fin 2048) :
    val_main_v13 (F := Ideal) x0 x1 x3 x4 x5 x6 x7 (ix3 b q k)
      = rawScore (proj x0 x4 x5 b q) (fun k => proj x1 x6 x7 b k) (fun k => x3 (ix3 b q k)) k := by
  rw [val_main_v13_apply, val_main_v12_apply]
  have e1 : ∀ d : Fin 1024, lidx_main_v12 (ix3 b q k) d = ix3 b q d := fun d => funext fun a => Fin.ext (by
    match a with | ⟨0, _⟩ => rfl | ⟨1, _⟩ => rfl | ⟨2, _⟩ => rfl)
  have e2 : ∀ d : Fin 1024, ridx_main_v12 (ix3 b q k) d = ix3 b k d := fun d => funext fun a => Fin.ext (by
    match a with | ⟨0, _⟩ => rfl | ⟨1, _⟩ => rfl | ⟨2, _⟩ => rfl)
  unfold rawScore
  simp only [Ideal.addf_def, e1, e2, v7_eq, lin_eq]

/-- Divided by the square root of 64. -/
theorem v16_eq (b : Fin 8) (q k : Fin 2048) :
    val_main_v16 (F := Ideal) x0 x1 x3 x4 x5 x6 x7 (ix3 b q k)
      = scoreDiv (proj x0 x4 x5 b q) (fun k => proj x1 x6 x7 b k) (fun k => x3 (ix3 b q k)) k := by
  rw [val_main_v16_apply, v13_eq, val_main_v15_apply, val_main_v14_apply, val_main_cst_apply]
  unfold scoreDiv
  simp only [Ideal.hostDivf_def, Ideal.hostUnary_sqrt_def, Ideal.ofBits_def]

/-! ## The row maximum -/

/-- The bit pattern of −∞ is the bottom of the extended reals. -/
theorem negInf_eq_bot : Ideal.ofBits .f32 0xFF800000#32 = (⊥ : EReal) := by
  simp [Ideal.ofBits, Ideal.ieee]

/-- Row (b, q) with column k put back on the reduced axis is (b, q, k). -/
theorem lift_ix3 (h : S8x2048x2048.Reduces [2] S8x2048) (b : Fin 8) (q : Fin 2048) (k : Fin (S8x2048x2048.size 2)) :
    h.lift (ix2 b q) k = ix3 b q (⟨k.val, k.isLt⟩ : Fin 2048) := by
  funext c; apply Fin.ext
  fin_cases c <;> rfl

/-- The maximum over the key axis, from −∞, is the row maximum of the scores of query row (b, q). -/
theorem v17_eq (b : Fin 8) (q : Fin 2048) :
    val_main_v17 (F := Ideal) x0 x1 x3 x4 x5 x6 x7 (ix2 b q)
      = rowMax (fun k => val_main_v16 (F := Ideal) x0 x1 x3 x4 x5 x6 x7 (ix3 b q k)) := by
  have h : S8x2048x2048.Reduces [2] S8x2048 := by decide
  unfold val_main_v17
  rw [Host.reduce_eq_fold_single FloatOps.maximumf _ _ _ h _]
  unfold rowMax
  have hf : (val_main_v16 (F := Ideal) x0 x1 x3 x4 x5 x6 x7 ∘ h.lift (ix2 b q))
      = fun k : Fin 2048 => val_main_v16 (F := Ideal) x0 x1 x3 x4 x5 x6 x7 (ix3 b q k) :=
    funext fun k => congrArg (val_main_v16 (F := Ideal) x0 x1 x3 x4 x5 x6 x7) (lift_ix3 h b q k)
  rw [hf, val_main_cst_0_apply, Ideal.ofBits_def, negInf_eq_bot]
  rfl

/-- The maximum with −∞ changes nothing. -/
theorem v19_eq (b : Fin 8) (q : Fin 2048) :
    val_main_v19 (F := Ideal) x0 x1 x3 x4 x5 x6 x7 (ix2 b q)
      = rowMax (fun k => val_main_v16 (F := Ideal) x0 x1 x3 x4 x5 x6 x7 (ix3 b q k)) := by
  rw [val_main_v19_apply, val_main_v18_apply, val_main_cst_1_apply, v17_eq, Ideal.ofBits_def, negInf_eq_bot,
    Ideal.maximumf_def]
  exact max_bot_left _

/-! ## The weights -/

/-- The exponential of the score less its row maximum. -/
theorem v23_eq (b : Fin 8) (q k : Fin 2048) :
    val_main_v23 (F := Ideal) x0 x1 x3 x4 x5 x6 x7 (ix3 b q k)
      = expRow (fun k => val_main_v16 (F := Ideal) x0 x1 x3 x4 x5 x6 x7 (ix3 b q k)) k := by
  rw [val_main_v23_apply, val_main_v22_apply, val_main_v21_apply, val_main_v20_apply]
  have e1 : idx_main_v20 (idx_main_v21 (ix3 b q k)) = ix2 b q := funext fun a => Fin.ext (by
    match a with | ⟨0, _⟩ => rfl | ⟨1, _⟩ => rfl)
  rw [e1, v19_eq]
  unfold expRow
  simp only [Ideal.hostUnary_exp_def, Ideal.subf_def]

/-- The row sum of the exponentials, from zero. -/
theorem v24_eq (b : Fin 8) (q : Fin 2048) :
    val_main_v24 (F := Ideal) x0 x1 x3 x4 x5 x6 x7 (ix2 b q)
      = ∑ k : Fin 2048, expRow (fun k => val_main_v16 (F := Ideal) x0 x1 x3 x4 x5 x6 x7 (ix3 b q k)) k := by
  rw [val_main_v24_apply, val_main_cst_2_apply, Ideal.ofBits_def, Ideal.ofBits_zero_f32, zero_add]
  have e1 : ∀ k : Fin 2048, idx_main_v24 (ix2 b q) k = ix3 b q k := fun k => funext fun a => Fin.ext (by
    match a with | ⟨0, _⟩ => rfl | ⟨1, _⟩ => rfl | ⟨2, _⟩ => rfl)
  simp only [e1, v23_eq]

/-- Every exponential divided by its row sum. -/
theorem v27_eq (b : Fin 8) (q k : Fin 2048) :
    val_main_v27 (F := Ideal) x0 x1 x3 x4 x5 x6 x7 (ix3 b q k)
      = Ideal.div (expRow (fun k => val_main_v16 (F := Ideal) x0 x1 x3 x4 x5 x6 x7 (ix3 b q k)) k)
          (∑ k' : Fin 2048, expRow (fun k => val_main_v16 (F := Ideal) x0 x1 x3 x4 x5 x6 x7 (ix3 b q k)) k') := by
  rw [val_main_v27_apply, v23_eq, val_main_v26_apply, val_main_v25_apply]
  have e1 : idx_main_v25 (idx_main_v26 (ix3 b q k)) = ix2 b q := funext fun a => Fin.ext (by
    match a with | ⟨0, _⟩ => rfl | ⟨1, _⟩ => rfl)
  rw [e1, v24_eq, Ideal.hostDivf_def]

/-! ## The weighted value sum -/

theorem v28_eq (b : Fin 8) (q : Fin 2048) (d : Fin 1024) :
    val_main_v28 (F := Ideal) x0 x1 x2 x3 x4 x5 x6 x7 x8 x9 (ix3 b q d)
      = attEarly (fun k => val_main_v16 (F := Ideal) x0 x1 x3 x4 x5 x6 x7 (ix3 b q k)) (fun k => proj x2 x8 x9 b k) d := by
  rw [val_main_v28_apply]
  have e1 : ∀ k : Fin 2048, lidx_main_v28 (ix3 b q d) k = ix3 b q k := fun k => funext fun a => Fin.ext (by
    match a with | ⟨0, _⟩ => rfl | ⟨1, _⟩ => rfl | ⟨2, _⟩ => rfl)
  have e2 : ∀ k : Fin 2048, ridx_main_v28 (ix3 b q d) k = ix3 b k d := fun k => funext fun a => Fin.ext (by
    match a with | ⟨0, _⟩ => rfl | ⟨1, _⟩ => rfl | ⟨2, _⟩ => rfl)
  unfold attEarly
  simp only [e1, e2, v27_eq, v11_eq, lin_eq]

end Stages

/-- The last stage of the reference, as a function of the twelve argument arrays, is `resultEarly`. -/
theorem ref_result (x0 x1 x2 : (⟨S8x2048x1024, .f32⟩ : BufTy).Contents (Elt Ideal)) (x3 : (⟨S8x2048x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal)) :
    (val_main_v32 (F := Ideal) x0 x1 x2 x3 x4 x5 x6 x7 x8 x9 x10 x11 : S8x2048x1024.Idx → EReal)
      = resultEarly x0 x1 x2 x3 x4 x5 x6 x7 x8 x9 x10 x11 := by
  funext i
  obtain ⟨b, n, e, rfl⟩ : ∃ (b : Fin 8) (n : Fin 2048) (e : Fin 1024), i = ix3 b n e := ⟨i 0, i 1, i 2, eq_ix3 i⟩
  have h32 : val_main_v32 (F := Ideal) x0 x1 x2 x3 x4 x5 x6 x7 x8 x9 x10 x11
      = val_main_v3 (F := Ideal) (val_main_v28 (F := Ideal) x0 x1 x2 x3 x4 x5 x6 x7 x8 x9) x10 x11 := rfl
  have hs : (fun k => val_main_v16 (F := Ideal) x0 x1 x3 x4 x5 x6 x7 (ix3 b n k))
      = scoreDiv (proj x0 x4 x5 b n) (fun k => proj x1 x6 x7 b k) (fun k => x3 (ix3 b n k)) :=
    funext fun k => v16_eq x0 x1 x3 x4 x5 x6 x7 b n k
  rw [h32, lin_eq]
  show linRow (fun d => val_main_v28 (F := Ideal) x0 x1 x2 x3 x4 x5 x6 x7 x8 x9 (ix3 b n d)) (fun d e => x10 (ix2 e d))
      (fun e => x11 (ix1 e)) e
    = linRow (attEarly (scoreDiv (proj x0 x4 x5 b n) (fun k => proj x1 x6 x7 b k) (fun k => x3 (ix3 b n k)))
        (fun k => proj x2 x8 x9 b k)) (fun d e => x10 (ix2 e d)) (fun e => x11 (ix1 e)) e
  refine congrArg (fun f => linRow f (fun d e => x10 (ix2 e d)) (fun e => x11 (ix1 e)) e) ?_
  funext d
  rw [v28_eq, hs]

end Cert.ReferenceIdeal.Hand

end
-- ==== Proof.Algebra.lean ====
/-
  The two arrangements of the attention row agree where the scores are real numbers.

  With q, K and the bias real, every raw score is real, so  x · (1/8) = x / √64  (√64 = 8, and dividing an
  extended real by a nonzero real is multiplying by its reciprocal). The scores being real and 2048 > 0, their
  maximum m is real, every  p k = exp (s k − m)  is a positive real, and so is  l = ∑ k, p k. Dividing by the
  positive real l is multiplying by the positive real 1/l, and a nonnegative real factor distributes over a finite
  sum of extended reals, whatever the summands:  ∑ k, (p k / l) · V k d = (∑ k, p k · V k d) / l.
-/
import proofs.«408704_j36756330119358_3_alg».proof.Proof.Spec
import Mathlib.Data.EReal.Operations
import Mathlib.Data.EReal.Inv

noncomputable section

namespace Cert.Attn

open Idealize.ShloMosaic Idealize.ShloMosaic.ValueIdx

/-- An extended real that is a real number. -/
private def IsR (x : EReal) : Prop := ∃ r : ℝ, x = (r : EReal)

private theorem IsR.add {x y : EReal} (hx : IsR x) (hy : IsR y) : IsR (x + y) := by
  obtain ⟨a, rfl⟩ := hx
  obtain ⟨b, rfl⟩ := hy
  exact ⟨a + b, (EReal.coe_add a b).symm⟩

private theorem IsR.mul {x y : EReal} (hx : IsR x) (hy : IsR y) : IsR (x * y) := by
  obtain ⟨a, rfl⟩ := hx
  obtain ⟨b, rfl⟩ := hy
  exact ⟨a * b, (EReal.coe_mul a b).symm⟩

/-- A finite sum of real numbers, read in the extended reals, is the real sum. -/
private theorem coe_sum {ι : Type} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

private theorem IsR.sum {ι : Type} (t : Finset ι) (f : ι → EReal) (h : ∀ i, IsR (f i)) :
    IsR (∑ i ∈ t, f i) := by
  choose r hr using h
  exact ⟨∑ i ∈ t, r i, by rw [← coe_sum]; exact Finset.sum_congr rfl fun i _ => hr i⟩

private theorem linRow_isR {x : Fin 1024 → EReal} {WT : Fin 1024 → Fin 1024 → EReal} {b : Fin 1024 → EReal}
    (hx : ∀ d, IsR (x d)) (hW : ∀ d e, IsR (WT d e)) (hb : ∀ e, IsR (b e)) (e : Fin 1024) :
    IsR (linRow x WT b e) :=
  (IsR.sum _ _ fun d => (hx d).mul (hW d e)).add (hb e)

private theorem rawScore_isR {q : Fin 1024 → EReal} {K : Fin 2048 → Fin 1024 → EReal} {bias : Fin 2048 → EReal}
    (hq : ∀ d, IsR (q d)) (hK : ∀ k d, IsR (K k d)) (hb : ∀ k, IsR (bias k)) (k : Fin 2048) :
    IsR (rawScore q K bias k) :=
  (IsR.sum _ _ fun d => (hq d).mul (hK k d)).add (hb k)

/-! ## The two scales -/

private theorem eighth : Ideal.ofBits .f32 0x3E000000#32 = ((1 / 8 : ℝ) : EReal) := by
  simp [Ideal.ofBits, Ideal.ieee, -EReal.coe_mul]; norm_num

private theorem sixtyFour : Ideal.ofBits .f32 0x42800000#32 = ((64 : ℝ) : EReal) := by
  simp [Ideal.ofBits, Ideal.ieee, -EReal.coe_mul]; norm_num

private theorem sqrt_sixtyFour : Real.sqrt 64 = 8 := by
  rw [show (64 : ℝ) = 8 ^ 2 by norm_num]
  exact Real.sqrt_sq (by norm_num)

/-- Dividing by `√64` is multiplying by `1/8`, whatever the score. -/
private theorem scoreDiv_eq_scoreMul (q : Fin 1024 → EReal) (K : Fin 2048 → Fin 1024 → EReal)
    (bias : Fin 2048 → EReal) : scoreDiv q K bias = scoreMul q K bias := by
  funext k
  unfold scoreDiv scoreMul
  rw [eighth, sixtyFour, Ideal.sqrt_coe, if_neg (by norm_num), sqrt_sixtyFour,
    Ideal.div_coe (by norm_num)]

/-! ## The row of weights -/

/-- The maximum of a nonempty finite family of reals, folded from `⊥`, is a real. -/
private theorem fold_max_isR {ι : Type} (s : ι → EReal) (hs : ∀ i, IsR (s i)) (t : Finset ι) (ht : t.Nonempty) :
    IsR (t.fold max ⊥ s) := by
  classical
  induction t using Finset.induction_on with
  | empty => exact absurd ht Finset.not_nonempty_empty
  | insert a t ha ih =>
    rw [Finset.fold_insert ha]
    obtain ⟨x, hx⟩ := hs a
    rcases t.eq_empty_or_nonempty with rfl | hne
    · rw [Finset.fold_empty, max_eq_left bot_le]; exact ⟨x, hx⟩
    · obtain ⟨m, hm⟩ := ih hne
      rw [hx, hm]
      rcases le_total x m with h | h
      · rw [max_eq_right (EReal.coe_le_coe_iff.2 h)]; exact ⟨m, rfl⟩
      · rw [max_eq_left (EReal.coe_le_coe_iff.2 h)]; exact ⟨x, rfl⟩

/-- A nonnegative real factor comes out of a finite sum of extended reals. -/
private theorem sum_mul_coe {ι : Type} (t : Finset ι) (f : ι → EReal) {c : ℝ} (hc : 0 ≤ c) :
    (∑ i ∈ t, f i * (c : EReal)) = (∑ i ∈ t, f i) * (c : EReal) := by
  classical
  induction t using Finset.induction_on with
  | empty => simp
  | insert a t ha ih =>
    rw [Finset.sum_insert ha, Finset.sum_insert ha, ih,
      EReal.right_distrib_of_nonneg_of_ne_top (by exact_mod_cast hc) (EReal.coe_ne_top c)]

/-- With real scores the two normalisations of one row agree, whatever the values. -/
private theorem attEarly_eq_attLate (s : Fin 2048 → EReal) (hs : ∀ k, IsR (s k))
    (V : Fin 2048 → Fin 1024 → EReal) : attEarly s V = attLate s V := by
  funext d
  obtain ⟨m, hm⟩ : IsR (rowMax s) := fold_max_isR s hs Finset.univ ⟨0, Finset.mem_univ _⟩
  choose r hr using hs
  have hp : ∀ k, expRow s k = ((Real.exp (r k - m) : ℝ) : EReal) := fun k => by
    unfold expRow
    rw [hr k, hm, ← EReal.coe_sub, Ideal.exp_coe]
  have hl : (∑ k : Fin 2048, expRow s k) = ((∑ k : Fin 2048, Real.exp (r k - m) : ℝ) : EReal) := by
    rw [← coe_sum]; exact Finset.sum_congr rfl fun k _ => hp k
  have hpos : 0 < ∑ k : Fin 2048, Real.exp (r k - m) :=
    Finset.sum_pos (fun k _ => Real.exp_pos _) ⟨0, Finset.mem_univ _⟩
  unfold attEarly attLate
  rw [hl, Ideal.div_coe hpos.ne', ← sum_mul_coe _ _ (one_div_nonneg.mpr hpos.le)]
  refine Finset.sum_congr rfl fun k _ => ?_
  rw [Ideal.div_coe hpos.ne', mul_right_comm]

/-- Where queries, keys, scores and the two projections' weights and biases are real numbers, dividing every
    softmax weight before the value sum and scaling by `/ √64` gives the same array as dividing once after
    the sum and scaling by `· 1/8`. -/
theorem resultEarly_eq_resultLate (query key value : A3) (score : A3s) (Wq : M2) (bq : V1) (Wk : M2) (bk : V1)
    (Wv : M2) (bv : V1) (Wo : M2) (bo : V1)
    (hq : AllReal query) (hk : AllReal key) (hs : AllReal score) (hWq : AllReal Wq) (hbq : AllReal bq)
    (hWk : AllReal Wk) (hbk : AllReal bk) :
    resultEarly query key value score Wq bq Wk bk Wv bv Wo bo
      = resultLate query key value score Wq bq Wk bk Wv bv Wo bo := by
  funext i
  have hpq : ∀ d, IsR (proj query Wq bq (i 0) (i 1) d) :=
    linRow_isR (fun d => hq _) (fun d e => hWq _) (fun e => hbq _)
  have hpk : ∀ k d, IsR (proj key Wk bk (i 0) k d) := fun k =>
    linRow_isR (fun d => hk _) (fun d e => hWk _) (fun e => hbk _)
  have hsc : ∀ k, IsR (scoreMul (proj query Wq bq (i 0) (i 1)) (fun k => proj key Wk bk (i 0) k)
      (fun k => score (ix3 (i 0) (i 1) k)) k) := fun k => by
    unfold scoreMul
    rw [eighth]
    exact (rawScore_isR hpq hpk (fun k => hs _) k).mul ⟨_, rfl⟩
  unfold resultEarly resultLate
  rw [scoreDiv_eq_scoreMul, attEarly_eq_attLate _ hsc]

end Cert.Attn

end
-- ==== Proof.Finite.lean ====
/-
  The precondition read: `finite_inputs` is the conjunction, over the twelve arguments, of "every entry has
  absolute value below +∞"; an extended real with |x| < ⊤ is a real number.
-/
import proofs.«408704_j36756330119358_3_alg».proof.Pre_finite_inputs
import proofs.«408704_j36756330119358_3_alg».proof.Proof.Gen.Pre_finite_inputs
import proofs.«408704_j36756330119358_3_alg».proof.Proof.Spec
import Idealize.ShloMosaic.Lib.ReduceAll
import Idealize.ShloMosaic.Lib.ValueIdx

noncomputable section

namespace Cert.Attn

open Idealize.ShloMosaic Idealize.ShloMosaic.ValueIdx Cert.Pre_finite_inputs

/-- The bit pattern of +∞ denotes ⊤. -/
private theorem inf_word : Ideal.ofBits .f32 0x7F800000#32 = (⊤ : EReal) := by
  simp [Ideal.ofBits, Ideal.ieee]

/-- An extended real whose absolute value max x (−x) is below ⊤ is a real number. -/
private theorem real_of_abs_lt_top (x : EReal) (h : Ideal.cmp .olt (max x (-x)) (⊤ : EReal) = 1#1) :
    ∃ r : ℝ, x = (r : EReal) := by
  induction x using EReal.rec with
  | bot => exact absurd h (by simp [Ideal.cmp])
  | top => exact absurd h (by simp [Ideal.cmp])
  | coe r => exact ⟨r, rfl⟩

/-- "Every entry has absolute value below +∞" came out 1: every entry is a real number. -/
private theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) :
    AllReal (x : s.Idx → EReal) := by
  intro i
  haveI : Subsingleton S_.Idx := ⟨fun a b => funext fun d => d.elim0⟩
  have hi := Host.reduce_andi_all _ _ hr hu ix0 e i
  apply real_of_abs_lt_top
  rw [← inf_word]
  exact hi

/-- If the printed predicate is all ones, the arguments the softmax's denominator depends on — queries, keys,
    scores, and the query and key projections' weights and biases — have only real entries. -/
theorem allReal_of_finite_inputs [Cert.Pre_finite_inputs.Facts]
    (a0 a1 a2 : FVec Ideal S8x2048x1024 .f32) (a3 : FVec Ideal S8x2048x2048 .f32)
    (a4 : FVec Ideal S1024x1024 .f32) (a5 : FVec Ideal S1024 .f32) (a6 : FVec Ideal S1024x1024 .f32) (a7 : FVec Ideal S1024 .f32)
    (a8 : FVec Ideal S1024x1024 .f32) (a9 : FVec Ideal S1024 .f32) (a10 : FVec Ideal S1024x1024 .f32) (a11 : FVec Ideal S1024 .f32)
    (h : Cert.Pre_finite_inputs.fn (F := Ideal) a0 a1 a2 a3 a4 a5 a6 a7 a8 a9 a10 a11 = fun _ => 1#1) :
    AllReal (a0 : S8x2048x1024.Idx → EReal) ∧ AllReal (a1 : S8x2048x1024.Idx → EReal)
      ∧ AllReal (a3 : S8x2048x2048.Idx → EReal) ∧ AllReal (a4 : S1024x1024.Idx → EReal) ∧ AllReal (a5 : S1024.Idx → EReal)
      ∧ AllReal (a6 : S1024x1024.Idx → EReal) ∧ AllReal (a7 : S1024.Idx → EReal) := by
  have e := congrFun h ix0
  dsimp only [fn, fn_part1, fn_part2, fn_part3] at e
  simp only [andi, IntOp.andi_eq_one] at e
  obtain ⟨⟨⟨⟨⟨⟨⟨⟨⟨⟨⟨h0, h1⟩, h2⟩, h3⟩, h4⟩, h5⟩, h6⟩, h7⟩, h8⟩, h9⟩, h10⟩, h11⟩ := e
  exact ⟨allReal_of_all a0 _ _ _ h0, allReal_of_all a1 _ _ _ h1, allReal_of_all a3 _ _ _ h3,
    allReal_of_all a4 _ _ _ h4, allReal_of_all a5 _ _ _ h5, allReal_of_all a6 _ _ _ h6, allReal_of_all a7 _ _ _ h7⟩

end Cert.Attn

end
-- ==== Proof.lean ====
/-
  Fused attention in two Pallas launches (a merged key/value projection, then query projection, softmax attention and
  output projection per block of 256 query rows) against the plain einsum/softmax reference, over the extended reals.

  Both compute, for every batch b and row n,
      out (b, n, ·) = Wo-layer ( att (b, n, ·) ),   att = softmax-weighted sum of the projected value rows,
  and differ in two places: the kernel scales the scores by the literal 1/8 where the reference divides by √64, and the
  kernel divides the weighted value sum by the softmax denominator once where the reference divides every weight. Under
  the precondition (every input entry a real number) the scores are real, so the denominator is a positive real and the
  two arrangements agree (Proof/Algebra.lean).

  The kernel's result array is read off its run: what the attention launch writes back block by block covers the output
  (Proof/Region1.lean), from the projected keys and values the first launch left (Proof/Region0.lean) and the host's
  transposes and reshapes (Proof/KernelValue.lean). The reference's result is its run's last stage read one operation at a
  time (Proof/RefValue.lean). The frames of the two kernel programs are the generated ones; the reference's is its run with
  the result dropped; nothing was rewritten by the idealization, so `preserves` is trivial.
-/
import proofs.«408704_j36756330119358_3_alg».proof.Defs
import proofs.«408704_j36756330119358_3_alg».proof.Proof.Gen.Kernel
import proofs.«408704_j36756330119358_3_alg».proof.Proof.Gen.Kernel.Frame
import proofs.«408704_j36756330119358_3_alg».proof.Proof.Gen.KernelIdeal
import proofs.«408704_j36756330119358_3_alg».proof.Proof.Gen.KernelIdeal.Frame
import proofs.«408704_j36756330119358_3_alg».proof.Proof.Gen.ReferenceIdeal
import proofs.«408704_j36756330119358_3_alg».proof.Proof.Gen.ReferenceIdeal.Run
import proofs.«408704_j36756330119358_3_alg».proof.Proof.Gen.ReferenceIdeal.Read
import proofs.«408704_j36756330119358_3_alg».proof.Proof.Gen.Pre_finite_inputs
import proofs.«408704_j36756330119358_3_alg».proof.Proof.KernelRun
import proofs.«408704_j36756330119358_3_alg».proof.Proof.KernelValue
import proofs.«408704_j36756330119358_3_alg».proof.Proof.RefValue
import proofs.«408704_j36756330119358_3_alg».proof.Proof.Algebra
import proofs.«408704_j36756330119358_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `resultLate` of the arguments: the kernel's by its run and the two
    regions' write-backs, the reference's by its run read stage by stage, `resultEarly`, which is `resultLate` where the
    inputs are real numbers. -/
theorem algebraic : Cert.algebraic_KernelIdeal_ReferenceIdeal := by
  intro m ρ m' ρ' hpre hagree
  refine ⟨fun c => Cert.Attn.resultLate
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Hand.W4_result m ρ c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v32_eq, Cert.ReferenceIdeal.Hand.ref_result, e0, e1, e2, e3, e4, e5, e6, e7, e8, e9, e10, e11]
    obtain ⟨h0, h1, h3, h4, h5, h6, h7⟩ := Cert.Attn.allReal_of_finite_inputs _ _ _ _ _ _ _ _ _ _ _ _ (hpre c)
    exact Cert.Attn.resultEarly_eq_resultLate _ _ _ _ _ _ _ _ _ _ _ _ h0 h1 h3 h4 h5 h6 h7

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
